-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1 : Shape := ⟨2, ![32, 1]⟩
abbrev S100000x64 : Shape := ⟨2, ![100000, 64]⟩
abbrev S500x64 : Shape := ⟨2, ![500, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S500x64 : S_.BroadcastsInDim S500x64 (![] : Fin 0 → Fin S500x64.rank)
  reducesTo_S500x64_S_d0_1 : S500x64.ReducesTo [0, 1] S_
  bcast_S_S32x1 : S_.BroadcastsInDim S32x1 (![] : Fin 0 → Fin S32x1.rank)
  reducesTo_S32x1_S_d0_1 : S32x1.ReducesTo [0, 1] S_

variable [Facts]

def fn_part1 {F : FTy → Type} [FloatOps F] (main_arg1 : IVec S32x1 32) (main_v15 : IVec S_ 1) (main_c_5 : IVec S_ 32) : IVec S_ 1 :=
  let main_v16 : IVec S32x1 32 := broadcastInDim S32x1 ![] bcast_S_S32x1 main_c_5
  let main_v17 : IVec S32x1 1 := cmpi .sge main_arg1 main_v16
  let main_c_6 : IVec S_ 32 := constantI S_ 32 500#32
  let main_v18 : IVec S32x1 32 := broadcastInDim S32x1 ![] bcast_S_S32x1 main_c_6
  let main_v19 : IVec S32x1 1 := cmpi .slt main_arg1 main_v18
  let main_v20 : IVec S32x1 1 := andi main_v17 main_v19
  let main_c_7 : IVec S_ 1 := constantI S_ 1 1#1
  let main_v21 : IVec S_ 1 := (fun x v => Host.reduce IntOp.andi x v reducesTo_S32x1_S_d0_1 h_S_) main_v20 main_c_7
  let main_v22 : IVec S_ 1 := andi main_v15 main_v21
  main_v22

def fn {F : FTy → Type} [FloatOps F] (main_arg0 : IVec S32x1 32) (main_arg1 : IVec S32x1 32) (main_arg2 : FVec F S100000x64 .f32) (main_arg3 : FVec F S500x64 .f32) : IVec S_ 1 :=
  let main_v0 : FVec F S100000x64 .f32 := Host.absf main_arg2
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S500x64 .f32 := Host.absf main_arg3
  let main_cst_0 : FVec F S_ .f32 := constant S_ .f32 0x7F800000#32
  let main_v5 : FVec F S500x64 .f32 := broadcastInDim S500x64 ![] bcast_S_S500x64 main_cst_0
  let main_v6 : IVec S500x64 1 := cmpf .olt main_v4 main_v5
  let main_c_1 : IVec S_ 1 := constantI S_ 1 1#1
  let main_v7 : IVec S_ 1 := (fun x v => Host.reduce IntOp.andi x v reducesTo_S500x64_S_d0_1 h_S_) main_v6 main_c_1
  let main_v8 : IVec S_ 1 := andi main_v3 main_v7
  let main_c_2 : IVec S_ 32 := constantI S_ 32 0#32
  let main_v9 : IVec S32x1 32 := broadcastInDim S32x1 ![] bcast_S_S32x1 main_c_2
  let main_v10 : IVec S32x1 1 := cmpi .sge main_arg0 main_v9
  let main_c_3 : IVec S_ 32 := constantI S_ 32 100000#32
  let main_v11 : IVec S32x1 32 := broadcastInDim S32x1 ![] bcast_S_S32x1 main_c_3
  let main_v12 : IVec S32x1 1 := cmpi .slt main_arg0 main_v11
  let main_v13 : IVec S32x1 1 := andi main_v10 main_v12
  let main_c_4 : IVec S_ 1 := constantI S_ 1 1#1
  let main_v14 : IVec S_ 1 := (fun x v => Host.reduce IntOp.andi x v reducesTo_S32x1_S_d0_1 h_S_) main_v13 main_c_4
  let main_v15 : IVec S_ 1 := andi main_v8 main_v14
  let main_c_5 : IVec S_ 32 := constantI S_ 32 0#32
  fn_part1 (F := F) main_arg1 main_v15 main_c_5
-- ==== Kernel.lean ====
abbrev S32x1 : Shape := ⟨2, ![32, 1]⟩
abbrev S100000x64 : Shape := ⟨2, ![100000, 64]⟩
abbrev S500x64 : Shape := ⟨2, ![500, 64]⟩
abbrev S32 : Shape := ⟨1, ![32]⟩
abbrev S_ : Shape := ⟨0, ![]⟩
abbrev S1 : Shape := ⟨1, ![1]⟩
abbrev S1x1 : Shape := ⟨2, ![1, 1]⟩
abbrev S32x64 : Shape := ⟨2, ![32, 64]⟩
abbrev S32x100000 : Shape := ⟨2, ![32, 100000]⟩
abbrev S12544x64 : Shape := ⟨2, ![12544, 64]⟩
abbrev S32x12544 : Shape := ⟨2, ![32, 12544]⟩
abbrev S1x64 : Shape := ⟨2, ![1, 64]⟩
abbrev S1x12544 : Shape := ⟨2, ![1, 12544]⟩

abbrev nBuf : Space → Nat
  | .hbm => 54
  | .vmem => 5
  | .smem => 0
  | _ => 0

abbrev bufTy : (tb : Table) → Fin (tcTables nBuf tb) → BufTy
  | .hbm, ⟨0, _⟩ => ⟨S32x1, .i32⟩
  | .hbm, ⟨1, _⟩ => ⟨S32x1, .i32⟩
  | .hbm, ⟨2, _⟩ => ⟨S100000x64, .f32⟩
  | .hbm, ⟨3, _⟩ => ⟨S500x64, .f32⟩
  | .hbm, ⟨4, _⟩ => ⟨S32, .i32⟩
  | .hbm, ⟨5, _⟩ => ⟨S32, .i32⟩
  | .hbm, ⟨6, _⟩ => ⟨S_, .i32⟩
  | .hbm, ⟨7, _⟩ => ⟨S32, .i32⟩
  | .hbm, ⟨8, _⟩ => ⟨S32, .i1⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S32, .i32⟩
  | .hbm, ⟨13, _⟩ => ⟨S32x1, .i32⟩
  | .hbm, ⟨14, _⟩ => ⟨S1, .i32⟩
  | .hbm, ⟨15, _⟩ => ⟨S_, .i32⟩
  | .hbm, ⟨16, _⟩ => ⟨S32x1, .i32⟩
  | .hbm, ⟨17, _⟩ => ⟨S32x1, .i1⟩
  | .hbm, ⟨18, _⟩ => ⟨S1x1, .i32⟩
  | .hbm, ⟨19, _⟩ => ⟨S32x1, .i32⟩
  | .hbm, ⟨20, _⟩ => ⟨S32x1, .i1⟩
  | .hbm, ⟨21, _⟩ => ⟨S32x1, .i1⟩
  | .hbm, ⟨22, _⟩ => ⟨S_, .i1⟩
  | .hbm, ⟨23, _⟩ => ⟨S32, .i1⟩
  | .hbm, ⟨24, _⟩ => ⟨S32x64, .f32⟩
  | .hbm, ⟨25, _⟩ => ⟨S32x64, .i1⟩
  | .hbm, ⟨26, _⟩ => ⟨S_, .f32⟩
  | .hbm, ⟨27, _⟩ => ⟨S32x64, .f32⟩
  | .hbm, ⟨28, _⟩ => ⟨S32x64, .f32⟩
  | .hbm, ⟨29, _⟩ => ⟨S_, .i32⟩
  | .hbm, ⟨30, _⟩ => ⟨S32, .i32⟩
  | .hbm, ⟨31, _⟩ => ⟨S32, .i1⟩
  | .hbm, ⟨32, _⟩ => ⟨S_, .i32⟩
  | .hbm, ⟨33, _⟩ => ⟨S32, .i32⟩
  | .hbm, ⟨34, _⟩ => ⟨S32, .i32⟩
  | .hbm, ⟨35, _⟩ => ⟨S32, .i32⟩
  | .hbm, ⟨36, _⟩ => ⟨S32x1, .i32⟩
  | .hbm, ⟨37, _⟩ => ⟨S1, .i32⟩
  | .hbm, ⟨38, _⟩ => ⟨S_, .i32⟩
  | .hbm, ⟨39, _⟩ => ⟨S32x1, .i32⟩
  | .hbm, ⟨40, _⟩ => ⟨S32x1, .i1⟩
  | .hbm, ⟨41, _⟩ => ⟨S1x1, .i32⟩
  | .hbm, ⟨42, _⟩ => ⟨S32x1, .i32⟩
  | .hbm, ⟨43, _⟩ => ⟨S32x1, .i1⟩
  | .hbm, ⟨44, _⟩ => ⟨S32x1, .i1⟩
  | .hbm, ⟨45, _⟩ => ⟨S_, .i1⟩
  | .hbm, ⟨46, _⟩ => ⟨S32, .i1⟩
  | .hbm, ⟨47, _⟩ => ⟨S32x64, .f32⟩
  | .hbm, ⟨48, _⟩ => ⟨S32x64, .i1⟩
  | .hbm, ⟨49, _⟩ => ⟨S_, .f32⟩
  | .hbm, ⟨50, _⟩ => ⟨S32x64, .f32⟩
  | .hbm, ⟨51, _⟩ => ⟨S32x64, .f32⟩
  | .hbm, ⟨52, _⟩ => ⟨S32x64, .f32⟩
  | .hbm, ⟨53, _⟩ => ⟨S32x100000, .f32⟩
  | .local _ .vmem, ⟨0, _⟩ => ⟨S32x64, .f32⟩
  | .local _ .vmem, ⟨1, _⟩ => ⟨S12544x64, .f32⟩
  | .local _ .vmem, ⟨2, _⟩ => ⟨S12544x64, .f32⟩
  | .local _ .vmem, ⟨3, _⟩ => ⟨S32x12544, .f32⟩
  | .local _ .vmem, ⟨4, _⟩ => ⟨S32x12544, .f32⟩
  | _, _ => ⟨S32x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_call0_c : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_c_0 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_c_1 : Ref sig .tc := ⟨.hbm, 14, rfl⟩
abbrev main_call0_call0_c_2 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_v8 : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_call0_c_3 : Ref sig .tc := ⟨.hbm, 22, rfl⟩
abbrev main_call0_call0_v12 : Ref sig .tc := ⟨.hbm, 23, rfl⟩
abbrev main_call0_call0_v13 : Ref sig .tc := ⟨.hbm, 24, rfl⟩
abbrev main_call0_call0_v14 : Ref sig .tc := ⟨.hbm, 25, rfl⟩
abbrev main_call0_call0_cst : Ref sig .tc := ⟨.hbm, 26, rfl⟩
abbrev main_call0_call0_v15 : Ref sig .tc := ⟨.hbm, 27, rfl⟩
abbrev main_call0_v2 : Ref sig .tc := ⟨.hbm, 28, rfl⟩
abbrev main_call0_call1_c : Ref sig .tc := ⟨.hbm, 29, rfl⟩
abbrev main_call0_call1_v0 : Ref sig .tc := ⟨.hbm, 30, rfl⟩
abbrev main_call0_call1_v1 : Ref sig .tc := ⟨.hbm, 31, rfl⟩
abbrev main_call0_call1_c_0 : Ref sig .tc := ⟨.hbm, 32, rfl⟩
abbrev main_call0_call1_v2 : Ref sig .tc := ⟨.hbm, 33, rfl⟩
abbrev main_call0_call1_v3 : Ref sig .tc := ⟨.hbm, 34, rfl⟩
abbrev main_call0_call1_v4 : Ref sig .tc := ⟨.hbm, 35, rfl⟩
abbrev main_call0_call1_v5 : Ref sig .tc := ⟨.hbm, 36, rfl⟩
abbrev main_call0_call1_c_1 : Ref sig .tc := ⟨.hbm, 37, rfl⟩
abbrev main_call0_call1_c_2 : Ref sig .tc := ⟨.hbm, 38, rfl⟩
abbrev main_call0_call1_v6 : Ref sig .tc := ⟨.hbm, 39, rfl⟩
abbrev main_call0_call1_v7 : Ref sig .tc := ⟨.hbm, 40, rfl⟩
abbrev main_call0_call1_v8 : Ref sig .tc := ⟨.hbm, 41, rfl⟩
abbrev main_call0_call1_v9 : Ref sig .tc := ⟨.hbm, 42, rfl⟩
abbrev main_call0_call1_v10 : Ref sig .tc := ⟨.hbm, 43, rfl⟩
abbrev main_call0_call1_v11 : Ref sig .tc := ⟨.hbm, 44, rfl⟩
abbrev main_call0_call1_c_3 : Ref sig .tc := ⟨.hbm, 45, rfl⟩
abbrev main_call0_call1_v12 : Ref sig .tc := ⟨.hbm, 46, rfl⟩
abbrev main_call0_call1_v13 : Ref sig .tc := ⟨.hbm, 47, rfl⟩
abbrev main_call0_call1_v14 : Ref sig .tc := ⟨.hbm, 48, rfl⟩
abbrev main_call0_call1_cst : Ref sig .tc := ⟨.hbm, 49, rfl⟩
abbrev main_call0_call1_v15 : Ref sig .tc := ⟨.hbm, 50, rfl⟩
abbrev main_call0_v3 : Ref sig .tc := ⟨.hbm, 51, rfl⟩
abbrev main_call0_v4 : Ref sig .tc := ⟨.hbm, 52, rfl⟩
abbrev main_v0 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S12544x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x12544 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32x1_S32 : S32x1.ShapeCasts S32
  bcast_S_S32 : S_.BroadcastsInDim S32 (![] : Fin 0 → Fin S32.rank)
  bcast_S32_S32x1_0 : S32.BroadcastsInDim S32x1 (![0] : Fin 1 → Fin S32x1.rank)
  bcast_S_S32x1 : S_.BroadcastsInDim S32x1 (![] : Fin 0 → Fin S32x1.rank)
  bcast_S1_S1x1_1 : S1.BroadcastsInDim S1x1 (![1] : Fin 1 → Fin S1x1.rank)
  bcast_S1x1_S32x1_0_1 : S1x1.BroadcastsInDim S32x1 (![0, 1] : Fin 2 → Fin S32x1.rank)
  reducesTo_S32x1_S32_d1 : S32x1.ReducesTo [1] S32
  h_S_ : 0 < S_.numel
  bcast_S32_S32x64_0 : S32.BroadcastsInDim S32x64 (![0] : Fin 1 → Fin S32x64.rank)
  bcast_S_S32x64 : S_.BroadcastsInDim S32x64 (![] : Fin 0 → Fin S32x64.rank)
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S12544x64_S12544x64_0_0 : ∀ a, (![0, 0] : Fin 2 → Nat) a + S12544x64.size a ≤ S12544x64.size a
  h_S12544x64 : 0 < S12544x64.numel
  reduces_S32x64_S32 : S32x64.Reduces [1] S32
  shapeCasts_S32_S32x1 : S32.ShapeCasts S32x1
  broadcasts_S32x1_S32x12544 : S32x1.Broadcasts S32x12544
  broadcasts_S1x12544_S32x12544 : S1x12544.Broadcasts S32x12544
  inb_S32x12544_S32x12544_0_0 : ∀ a, (![0, 0] : Fin 2 → Nat) a + S32x12544.size a ≤ S32x12544.size a
  h_S32x12544 : 0 < S32x12544.numel
  gather_S100000x64_S32x1_S32x64_1_0_n_n_0_1_164_wf : GatherDims.WF S100000x64 S32x1 S32x64 [1] [0] [] [0] [] 1 ![1, 64]
  gather_S500x64_S32x1_S32x64_1_0_n_n_0_1_164_wf : GatherDims.WF S500x64 S32x1 S32x64 [1] [0] [] [0] [] 1 ![1, 64]
  dot_S1x64_S12544x64_S1x12544_1_1_0_0_n_n_wf : DotDims.WF S1x64 S12544x64 S1x12544 [1] [1] [0] [0] [] []
  dot_S32x64_S12544x64_S32x12544_1_1_0_0_n_n_wf : DotDims.WF S32x64 S12544x64 S32x12544 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x64.size a ≤ S32x64.size a
  hwx0_0 : ∀ i : grid0.Coords, EltTy.bits .f32 = 32 ∨ (Rect.block (s := S32x64) S32x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S12544x64.size a < S100000x64.size a
  hwx0_1 : ∀ i : grid0.Coords, EltTy.bits .f32 = 32 ∨ (Rect.unit (s := S100000x64) (fun a => cc0_transform_1 i a * S12544x64.size a) (fun a => (Pipeline.Clip.of (cc0_transform_1 i a) (S12544x64.size a) (S100000x64.size a)).extent (S12544x64.size a)) fun a => Pipeline.Clip.inb (Pipeline.Clip.ok_of (hstart0_1 i a))).WholeWords (EltTy.packing .f32)
  hwxs0_1 : ∀ i : grid0.Coords, EltTy.bits .f32 = 32 ∨ (Rect.unit (s := S12544x64) (fun _ => 0) (fun a => (Pipeline.Clip.of (cc0_transform_1 i a) (S12544x64.size a) (S100000x64.size a)).extent (S12544x64.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S32x12544.size a < S32x100000.size a
  hwx0_2 : ∀ i : grid0.Coords, EltTy.bits .f32 = 32 ∨ (Rect.unit (s := S32x100000) (fun a => cc0_transform_2 i a * S32x12544.size a) (fun a => (Pipeline.Clip.of (cc0_transform_2 i a) (S32x12544.size a) (S32x100000.size a)).extent (S32x12544.size a)) fun a => Pipeline.Clip.inb (Pipeline.Clip.ok_of (hstart0_2 i a))).WholeWords (EltTy.packing .f32)
  hwxs0_2 : ∀ i : grid0.Coords, EltTy.bits .f32 = 32 ∨ (Rect.unit (s := S32x12544) (fun _ => 0) (fun a => (Pipeline.Clip.of (cc0_transform_2 i a) (S32x12544.size a) (S32x100000.size a)).extent (S32x12544.size a)) fun a => (Nat.zero_add _).trans_le (Pipeline.Clip.extent_le (Pipeline.Clip.ok_of (hstart0_2 i a)))).WholeWords (EltTy.packing .f32)

variable [Facts₀]

def gather_S100000x64_S32x1_S32x64_1_0_n_n_0_1_164 : GatherDims S100000x64 S32x1 S32x64 where
  offsetDims := [1]
  collapsedSliceDims := [0]
  operandBatchingDims := []
  startIndicesBatchingDims := []
  startIndexMap := [0]
  indexVectorDim := 1
  sliceSizes := ![1, 64]
  wf := gather_S100000x64_S32x1_S32x64_1_0_n_n_0_1_164_wf
def gather_S500x64_S32x1_S32x64_1_0_n_n_0_1_164 : GatherDims S500x64 S32x1 S32x64 where
  offsetDims := [1]
  collapsedSliceDims := [0]
  operandBatchingDims := []
  startIndicesBatchingDims := []
  startIndexMap := [0]
  indexVectorDim := 1
  sliceSizes := ![1, 64]
  wf := gather_S500x64_S32x1_S32x64_1_0_n_n_0_1_164_wf
def dot_S1x64_S12544x64_S1x12544_1_1_0_0_n_n : DotDims S1x64 S12544x64 S1x12544 where
  lhsContracting := [1]
  rhsContracting := [1]
  lhsNonContracting := [0]
  rhsNonContracting := [0]
  lhsBatch := []
  rhsBatch := []
  wf := dot_S1x64_S12544x64_S1x12544_1_1_0_0_n_n_wf
def dot_S32x64_S12544x64_S32x12544_1_1_0_0_n_n : DotDims S32x64 S12544x64 S32x12544 where
  lhsContracting := [1]
  rhsContracting := [1]
  lhsNonContracting := [0]
  rhsNonContracting := [0]
  lhsBatch := []
  rhsBatch := []
  wf := dot_S32x64_S12544x64_S32x12544_1_1_0_0_n_n_wf

abbrev win0_0 : Pipeline.Window sig grid0 :=
  Pipeline.Window.ofSpec (Memref.whole main_call0_v4) S32x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg2) S12544x64.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v0) S32x12544.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x1 : Shape := ⟨2, ![32, 1]⟩
abbrev S100000x64 : Shape := ⟨2, ![100000, 64]⟩
abbrev S500x64 : Shape := ⟨2, ![500, 64]⟩
abbrev S32 : Shape := ⟨1, ![32]⟩
abbrev S_ : Shape := ⟨0, ![]⟩
abbrev S32x64 : Shape := ⟨2, ![32, 64]⟩
abbrev S32x1x64 : Shape := ⟨3, ![32, 1, 64]⟩
abbrev S1x100000x64 : Shape := ⟨3, ![1, 100000, 64]⟩
abbrev S32x100000x64 : Shape := ⟨3, ![32, 100000, 64]⟩
abbrev S32x100000 : Shape := ⟨2, ![32, 100000]⟩

abbrev nBuf : Space → Nat
  | .hbm => 37
  | .vmem => 0
  | .smem => 0
  | _ => 0

abbrev bufTy : (tb : Table) → Fin (tcTables nBuf tb) → BufTy
  | .hbm, ⟨0, _⟩ => ⟨S32x1, .i32⟩
  | .hbm, ⟨1, _⟩ => ⟨S32x1, .i32⟩
  | .hbm, ⟨2, _⟩ => ⟨S100000x64, .f32⟩
  | .hbm, ⟨3, _⟩ => ⟨S500x64, .f32⟩
  | .hbm, ⟨4, _⟩ => ⟨S32, .i32⟩
  | .hbm, ⟨5, _⟩ => ⟨S_, .i32⟩
  | .hbm, ⟨6, _⟩ => ⟨S32, .i32⟩
  | .hbm, ⟨7, _⟩ => ⟨S32, .i1⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S32, .i32⟩
  | .hbm, ⟨12, _⟩ => ⟨S32x1, .i32⟩
  | .hbm, ⟨13, _⟩ => ⟨S32x64, .f32⟩
  | .hbm, ⟨14, _⟩ => ⟨S32, .i32⟩
  | .hbm, ⟨15, _⟩ => ⟨S_, .i32⟩
  | .hbm, ⟨16, _⟩ => ⟨S32, .i32⟩
  | .hbm, ⟨17, _⟩ => ⟨S32, .i1⟩
  | .hbm, ⟨18, _⟩ => ⟨S_, .i32⟩
  | .hbm, ⟨19, _⟩ => ⟨S32, .i32⟩
  | .hbm, ⟨20, _⟩ => ⟨S32, .i32⟩
  | .hbm, ⟨21, _⟩ => ⟨S32, .i32⟩
  | .hbm, ⟨22, _⟩ => ⟨S32x1, .i32⟩
  | .hbm, ⟨23, _⟩ => ⟨S32x64, .f32⟩
  | .hbm, ⟨24, _⟩ => ⟨S32x64, .f32⟩
  | .hbm, ⟨25, _⟩ => ⟨S32x1x64, .f32⟩
  | .hbm, ⟨26, _⟩ => ⟨S1x100000x64, .f32⟩
  | .hbm, ⟨27, _⟩ => ⟨S32x100000x64, .f32⟩
  | .hbm, ⟨28, _⟩ => ⟨S32x100000x64, .f32⟩
  | .hbm, ⟨29, _⟩ => ⟨S32x100000x64, .f32⟩
  | .hbm, ⟨30, _⟩ => ⟨S32x100000x64, .f32⟩
  | .hbm, ⟨31, _⟩ => ⟨S_, .f32⟩
  | .hbm, ⟨32, _⟩ => ⟨S32x100000, .f32⟩
  | .hbm, ⟨33, _⟩ => ⟨S32x100000, .f32⟩
  | .hbm, ⟨34, _⟩ => ⟨S_, .f32⟩
  | .hbm, ⟨35, _⟩ => ⟨S32x100000, .f32⟩
  | .hbm, ⟨36, _⟩ => ⟨S32x100000, .f32⟩
  | _, _ => ⟨S32x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]

class Facts₀ : Prop where
  shapeCasts_S32x1_S32 : S32x1.ShapeCasts S32
  bcast_S_S32 : S_.BroadcastsInDim S32 (![] : Fin 0 → Fin S32.rank)
  bcast_S32_S32x1_0 : S32.BroadcastsInDim S32x1 (![0] : Fin 1 → Fin S32x1.rank)
  bcast_S32x64_S32x1x64_0_2 : S32x64.BroadcastsInDim S32x1x64 (![0, 2] : Fin 2 → Fin S32x1x64.rank)
  bcast_S100000x64_S1x100000x64_1_2 : S100000x64.BroadcastsInDim S1x100000x64 (![1, 2] : Fin 2 → Fin S1x100000x64.rank)
  bcast_S32x1x64_S32x100000x64_0_1_2 : S32x1x64.BroadcastsInDim S32x100000x64 (![0, 1, 2] : Fin 3 → Fin S32x100000x64.rank)
  bcast_S1x100000x64_S32x100000x64_0_1_2 : S1x100000x64.BroadcastsInDim S32x100000x64 (![0, 1, 2] : Fin 3 → Fin S32x100000x64.rank)
  reducesTo_S32x100000x64_S32x100000_d2 : S32x100000x64.ReducesTo [2] S32x100000
  h_S_ : 0 < S_.numel
  bcast_S_S32x100000 : S_.BroadcastsInDim S32x100000 (![] : Fin 0 → Fin S32x100000.rank)
  gather_S100000x64_S32x1_S32x64_1_0_n_n_0_1_164_wf : GatherDims.WF S100000x64 S32x1 S32x64 [1] [0] [] [0] [] 1 ![1, 64]
  gather_S500x64_S32x1_S32x64_1_0_n_n_0_1_164_wf : GatherDims.WF S500x64 S32x1 S32x64 [1] [0] [] [0] [] 1 ![1, 64]

variable [Facts₀]

def gather_S100000x64_S32x1_S32x64_1_0_n_n_0_1_164 : GatherDims S100000x64 S32x1 S32x64 where
  offsetDims := [1]
  collapsedSliceDims := [0]
  operandBatchingDims := []
  startIndicesBatchingDims := []
  startIndexMap := [0]
  indexVectorDim := 1
  sliceSizes := ![1, 64]
  wf := gather_S100000x64_S32x1_S32x64_1_0_n_n_0_1_164_wf
def gather_S500x64_S32x1_S32x64_1_0_n_n_0_1_164 : GatherDims S500x64 S32x1 S32x64 where
  offsetDims := [1]
  collapsedSliceDims := [0]
  operandBatchingDims := []
  startIndicesBatchingDims := []
  startIndexMap := [0]
  indexVectorDim := 1
  sliceSizes := ![1, 64]
  wf := gather_S500x64_S32x1_S32x64_1_0_n_n_0_1_164_wf

class Facts : Prop extends Facts₀ where

variable [Facts]
-- ==== Proof.BodyK.lean ====
import proofs.«419847_j90314572300924_3_alg».proof.Proof.Gen.Kernel.Frame
import proofs.«419847_j90314572300924_3_alg».proof.Proof.Gen.Kernel.Skeleton
import Idealize.ShloMosaic.Lib.Pipeline.Frame
import Idealize.ShloMosaic.Lib.Pipeline.Kit
import Idealize.ShloMosaic.Lib.Pipeline.Value
import Idealize.ShloMosaic.Lib.Tactic

set_option maxRecDepth 16384

/-! The one pallas_call of the program, point by point. At grid point `t` the body is handed the 32 query rows (the same
    block at every point), block `t` of the entity table — 12544 rows, of which only the first 100000 − 12544·t lie inside
    the table at the last point, the rest of the staging buffer holding words nothing names — and the result's staging
    buffer; it stores one value, the scores of the query rows against the block's rows, column `j` of it computed from
    row `j` of the block alone. Here: the body's triple, what each staging buffer holds after the body, and from these
    that the program runs to the end and leaves its four arguments as they were, for any reading of the floats. -/

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

abbrev rq : Rect S32x64 := Rect.unit (s := S32x64) ![0, 0] S32x64.size inb_S32x64_S32x64_0_0
abbrev rt : Rect S12544x64 := Rect.unit (s := S12544x64) ![0, 0] S12544x64.size inb_S12544x64_S12544x64_0_0
abbrev ro : Rect S32x12544 := Rect.unit (s := S32x12544) ![0, 0] S32x12544.size inb_S32x12544_S32x12544_0_0

/-- The one store covers the result's staging buffer. -/
theorem cover_out (p0 : Vec F S32x12544 .f32) (y : S32x12544.Idx) :
    ∃ pc ∈ ([⟨ro, p0⟩] : List (View.Piece (Elt F) S32x12544 .f32)), y ∈ pc.1.set :=
  View.cover_of_tiled [⟨ro, p0⟩] S32x12544.size (by rfl) y

theorem hz2 : (![0, 0] : Fin 2 → Nat) = fun _ => 0 := funext fun a => by fin_cases a <;> rfl

set_option maxHeartbeats 1000000 in
/-- On whole staging buffers, the queries' at `x0`, the table block's at `x1` and the result's at anything, the body runs
    to the end leaving the first two as they were and the result's at the body's one value of `x0` and `x1`. -/
theorem sound_kernel (c : Dev nD) (E : Set ℕ) (i : grid0.Coords) (arg1 : Memref sig .tc .vmem S32x64 .f32) (harg1 : arg1.IsWhole)
    (arg2 : Memref sig .tc .vmem S12544x64 .f32) (harg2 : arg2.IsWhole) (arg3 : Memref sig .tc .vmem S32x12544 .f32) (harg3 : arg3.IsWhole)
    (x0 : Vec F S32x64 .f32) (x1 : Vec F S12544x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
              ∗ owns (c : Thread nD τ) arg3 fullShare (k0_pay1 x0 x1)) -∗ K ⟨⟩))
      ⊢ wp frame (wpE (defs₀ (F := F)) Variants.none c none) E (cc0__dist_kernel i arg1 harg1 arg2 harg2 arg3 harg3) K := by
  simp only [cc0__dist_kernel_eq_skeleton]; unfold cc0__dist_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover_out _), View.canon_unit_zero hz2]
  simp only [View.readAt_eq_ld, View.ld_unit_zero (S := S32x64) hz2, View.ld_unit_zero (S := S12544x64) hz2]

/-! ## What the staging buffers hold -/

/-- Block `t` of the entity table as the fetch reads it — its rows inside the table — filled out to the staging buffer's
    12544 rows with the zero word: past the table's end nothing is claimed of the buffer, and nothing read from there
    reaches a column of the result that is written back. -/
def tfill (c : Dev nD) (t : Fin cfg0.N) : Vec F S12544x64 .f32 :=
  (cfg0.win 1).fill (cfg0.grid.coords t) (fun _ => Scalar.ofBits .f32 0#32) (iblk m c 1 t)

/-- The proof data of the one pipeline on core `c`: the arrays as the region finds them; after the body at point `t` the
    queries' buffer at the query rows, the table's at block `t` filled out, the result's at the body's value of the two. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => tfill m c t
    | ⟨2, _⟩ => k0_pay1 (iblk m c 0 t) (tfill m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = tfill m c t := by dsimp only [dats]
theorem after_2 (c : Dev nD) (t : Fin cfg0.N) : (dats m 0 c).after 2 t = k0_pay1 (iblk m c 0 t) (tfill m c t) := by dsimp only [dats]

/-- The queries' buffer holds the query rows at every point, fetched there or not. -/
theorem before_0 (c : Dev nD) (t : Fin cfg0.N) (d) : (dats m 0 c).before 0 t d = iblk m c 0 t :=
  before0_0_of m (dats m 0 c) (A_eq m c 0) (after_0 m c) t d

/-- The table's buffer is fetched at every point: block `t`'s rows inside the table, and past them whatever it held. -/
theorem before_1 (c : Dev nD) (t : Fin cfg0.N) (d) :
    (dats m 0 c).before 1 t d = (cfg0.win 1).fill (cfg0.grid.coords t) d (iblk m c 1 t) := by
  unfold Dat.before; rw [if_pos (fetch0_1 t)]; rfl

/-- Cutting the filled block back to the rows inside the table gives the block. -/
theorem cut_tfill (c : Dev nD) (t : Fin cfg0.N) :
    (cfg0.win 1).cut (cfg0.grid.coords t) (tfill m c t) = iblk m c 1 t :=
  (cfg0.win 1).cut_fill _ _ _

/-! ## The body obligation when the result's contents are not asked for -/

/-- The windows whose staging contents the frame does not name: the result's. -/
def forgetOut : Fin cfg0.W → Bool := fun w => w.val == 2

def bodyPreF (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ X, owns (c : Thread nD τ) (st0_2 t) fullShare X))

def bodyPostF (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        ((cfg0.win 1).fill (cfg0.grid.coords t) d ((cfg0.win 1).cut (cfg0.grid.coords t) ((dats m 0 c).after 1 t))))
    ∗ (∃ X, owns (c : Thread nD τ) (st0_2 t) fullShare X))

theorem sound_bodyF (c : Dev nD) (t : Fin cfg0.N) :
    bodyPreF m c t ⊢ wp frame (wpE (defs₀ (F := F)) Variants.none c none) Set.univ (bodyAt0 t) (fun _ => bodyPostF m c t) := by
  unfold bodyPreF bodyPostF bodyAt0
  simp only [before_0, before_1]
  rw [show (dats m 0 c).Φ t.succ = (dats m 0 c).Φ t.castSucc from rfl,
    show (dats m 0 c).owesAt () t.succ = (dats m 0 c).owesAt () t.castSucc from rfl,
    after_0, after_1, cut_tfill]
  iintro ⟨HΦ, Ho, ⟨%d0, H0⟩, ⟨%d1, H1⟩, ⟨%d2, H2⟩⟩
  iapply (sound_kernel c Set.univ (grid0.coords t) _ _ _ _ _ _ (iblk m c 0 t)
    ((cfg0.win 1).fill (cfg0.grid.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexists d1; iexact H1
  iexists _; iexact H2

theorem body_obligationF (c : Dev nD) :
    BodyObligationLoose (dats (F := F) m 0 c) (defs₀ (F := F)) Variants.none () Set.univ forgetOut := fun t => by
  rw [bigSep_W0, bigSep_W0]
  exact sound_bodyF m c t

end Cert.Kernel.Body

end
-- ==== Proof.FrameRunK.lean ====
import proofs.«419847_j90314572300924_3_alg».proof.Proof.BodyK

set_option maxRecDepth 16384

/-! The program runs to the end and leaves its four arguments as they were, for any reading of the floats: the
    pipeline's run with the result's staging contents left unnamed. Of the arrays it then says: the entity table, the
    one argument a window stages, holds what it held (an input is never written), and the other three, which no
    window stages, hold what the region found, which is what the program was launched with. -/

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

variable (m : (ℓ : Loc nD τ sig) → Buf (Elt F) ℓ) (ρ : Dev nD → PrngReg)

/-- The proof data read as constraints, the result's window unconstrained. -/
def rdats (c : Dev nD) : RDat τ (Elt F) Unit ℕ (UR sig nD τ) ℕ cfg0 c := (dats m 0 c).toRForget forgetOut

set_option backward.isDefEq.respectTransparency.types false in
theorem run_frame : θ_run defs (onTc (τ := τ) (main (F := F))) (s₀ m ρ) (RDat.FramePost cfg0 (rdats m) (V m)) :=
  Pipeline.RDat.θ_run_frame cfgs (0 : Fin 1) launch0 defs₀ Variants.none (rdats m) m ρ main
    (hbody := fun c => (body_obligationF m c).toRForget)
    (hshare := fun c => (dats m 0 c).share_full fun _ => rfl)
    (howed := fun _ _ => rfl) (V := V m) (hmain := hmain m Variants.none) (hA := A_eq m) (hΦ := fun _ _ => rfl)

/-- The frame: every weakly fair execution ends, without a fault, with the four arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 1 rfl).trans ((A_eq m c 1).trans (V_main_arg2 m c)),
      ((h c).2 main_arg3 (Pipeline.mem_restRefs_of main_arg3 (by decide) (by decide))).trans (V_main_arg3 m c)⟩) (run_frame m ρ)

end Cert.Kernel.Body

end
-- ==== Proof.Body.lean ====
import proofs.«419847_j90314572300924_3_alg».proof.Proof.Gen.KernelIdeal.Frame
import proofs.«419847_j90314572300924_3_alg».proof.Proof.Gen.KernelIdeal.Skeleton
import Idealize.ShloMosaic.Lib.Pipeline.Frame
import Idealize.ShloMosaic.Lib.Pipeline.Kit
import Idealize.ShloMosaic.Lib.Pipeline.Value
import Idealize.ShloMosaic.Lib.Tactic

set_option maxRecDepth 16384

/-! The one pallas_call of the program, point by point. At grid point `t` the body is handed the 32 query rows (the same
    block at every point), block `t` of the entity table — 12544 rows, of which only the first 100000 − 12544·t lie inside
    the table at the last point, the rest of the staging buffer holding words nothing names — and the result's staging
    buffer; it stores one value, the scores of the query rows against the block's rows, column `j` of it computed from
    row `j` of the block alone. Here: the body's triple, what each staging buffer holds after the body, and from these
    that the program runs to the end and leaves its four arguments as they were, for any reading of the floats. -/

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

abbrev rq : Rect S32x64 := Rect.unit (s := S32x64) ![0, 0] S32x64.size inb_S32x64_S32x64_0_0
abbrev rt : Rect S12544x64 := Rect.unit (s := S12544x64) ![0, 0] S12544x64.size inb_S12544x64_S12544x64_0_0
abbrev ro : Rect S32x12544 := Rect.unit (s := S32x12544) ![0, 0] S32x12544.size inb_S32x12544_S32x12544_0_0

/-- The one store covers the result's staging buffer. -/
theorem cover_out (p0 : Vec F S32x12544 .f32) (y : S32x12544.Idx) :
    ∃ pc ∈ ([⟨ro, p0⟩] : List (View.Piece (Elt F) S32x12544 .f32)), y ∈ pc.1.set :=
  View.cover_of_tiled [⟨ro, p0⟩] S32x12544.size (by rfl) y

theorem hz2 : (![0, 0] : Fin 2 → Nat) = fun _ => 0 := funext fun a => by fin_cases a <;> rfl

set_option maxHeartbeats 1000000 in
/-- On whole staging buffers, the queries' at `x0`, the table block's at `x1` and the result's at anything, the body runs
    to the end leaving the first two as they were and the result's at the body's one value of `x0` and `x1`. -/
theorem sound_kernel (c : Dev nD) (E : Set ℕ) (i : grid0.Coords) (arg1 : Memref sig .tc .vmem S32x64 .f32) (harg1 : arg1.IsWhole)
    (arg2 : Memref sig .tc .vmem S12544x64 .f32) (harg2 : arg2.IsWhole) (arg3 : Memref sig .tc .vmem S32x12544 .f32) (harg3 : arg3.IsWhole)
    (x0 : Vec F S32x64 .f32) (x1 : Vec F S12544x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
              ∗ owns (c : Thread nD τ) arg3 fullShare (k0_pay1 x0 x1)) -∗ K ⟨⟩))
      ⊢ wp frame (wpE (defs₀ (F := F)) Variants.none c none) E (cc0__dist_kernel i arg1 harg1 arg2 harg2 arg3 harg3) K := by
  simp only [cc0__dist_kernel_eq_skeleton]; unfold cc0__dist_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover_out _), View.canon_unit_zero hz2]
  simp only [View.readAt_eq_ld, View.ld_unit_zero (S := S32x64) hz2, View.ld_unit_zero (S := S12544x64) hz2]

/-! ## What the staging buffers hold -/

/-- Block `t` of the entity table as the fetch reads it — its rows inside the table — filled out to the staging buffer's
    12544 rows with the zero word: past the table's end nothing is claimed of the buffer, and nothing read from there
    reaches a column of the result that is written back. -/
def tfill (c : Dev nD) (t : Fin cfg0.N) : Vec F S12544x64 .f32 :=
  (cfg0.win 1).fill (cfg0.grid.coords t) (fun _ => Scalar.ofBits .f32 0#32) (iblk m c 1 t)

/-- The proof data of the one pipeline on core `c`: the arrays as the region finds them; after the body at point `t` the
    queries' buffer at the query rows, the table's at block `t` filled out, the result's at the body's value of the two. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => tfill m c t
    | ⟨2, _⟩ => k0_pay1 (iblk m c 0 t) (tfill m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = tfill m c t := by dsimp only [dats]
theorem after_2 (c : Dev nD) (t : Fin cfg0.N) : (dats m 0 c).after 2 t = k0_pay1 (iblk m c 0 t) (tfill m c t) := by dsimp only [dats]

/-- The queries' buffer holds the query rows at every point, fetched there or not. -/
theorem before_0 (c : Dev nD) (t : Fin cfg0.N) (d) : (dats m 0 c).before 0 t d = iblk m c 0 t :=
  before0_0_of m (dats m 0 c) (A_eq m c 0) (after_0 m c) t d

/-- The table's buffer is fetched at every point: block `t`'s rows inside the table, and past them whatever it held. -/
theorem before_1 (c : Dev nD) (t : Fin cfg0.N) (d) :
    (dats m 0 c).before 1 t d = (cfg0.win 1).fill (cfg0.grid.coords t) d (iblk m c 1 t) := by
  unfold Dat.before; rw [if_pos (fetch0_1 t)]; rfl

/-- Cutting the filled block back to the rows inside the table gives the block. -/
theorem cut_tfill (c : Dev nD) (t : Fin cfg0.N) :
    (cfg0.win 1).cut (cfg0.grid.coords t) (tfill m c t) = iblk m c 1 t :=
  (cfg0.win 1).cut_fill _ _ _

/-! ## The body obligation when the result's contents are not asked for -/

/-- The windows whose staging contents the frame does not name: the result's. -/
def forgetOut : Fin cfg0.W → Bool := fun w => w.val == 2

def bodyPreF (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ X, owns (c : Thread nD τ) (st0_2 t) fullShare X))

def bodyPostF (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        ((cfg0.win 1).fill (cfg0.grid.coords t) d ((cfg0.win 1).cut (cfg0.grid.coords t) ((dats m 0 c).after 1 t))))
    ∗ (∃ X, owns (c : Thread nD τ) (st0_2 t) fullShare X))

theorem sound_bodyF (c : Dev nD) (t : Fin cfg0.N) :
    bodyPreF m c t ⊢ wp frame (wpE (defs₀ (F := F)) Variants.none c none) Set.univ (bodyAt0 t) (fun _ => bodyPostF m c t) := by
  unfold bodyPreF bodyPostF bodyAt0
  simp only [before_0, before_1]
  rw [show (dats m 0 c).Φ t.succ = (dats m 0 c).Φ t.castSucc from rfl,
    show (dats m 0 c).owesAt () t.succ = (dats m 0 c).owesAt () t.castSucc from rfl,
    after_0, after_1, cut_tfill]
  iintro ⟨HΦ, Ho, ⟨%d0, H0⟩, ⟨%d1, H1⟩, ⟨%d2, H2⟩⟩
  iapply (sound_kernel c Set.univ (grid0.coords t) _ _ _ _ _ _ (iblk m c 0 t)
    ((cfg0.win 1).fill (cfg0.grid.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexists d1; iexact H1
  iexists _; iexact H2

theorem body_obligationF (c : Dev nD) :
    BodyObligationLoose (dats (F := F) m 0 c) (defs₀ (F := F)) Variants.none () Set.univ forgetOut := fun t => by
  rw [bigSep_W0, bigSep_W0]
  exact sound_bodyF m c t

end Cert.KernelIdeal.Body

end
-- ==== Proof.FrameRun.lean ====
import proofs.«419847_j90314572300924_3_alg».proof.Proof.Body

set_option maxRecDepth 16384

/-! The program runs to the end and leaves its four arguments as they were, for any reading of the floats: the
    pipeline's run with the result's staging contents left unnamed. Of the arrays it then says: the entity table, the
    one argument a window stages, holds what it held (an input is never written), and the other three, which no
    window stages, hold what the region found, which is what the program was launched with. -/

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

variable (m : (ℓ : Loc nD τ sig) → Buf (Elt F) ℓ) (ρ : Dev nD → PrngReg)

/-- The proof data read as constraints, the result's window unconstrained. -/
def rdats (c : Dev nD) : RDat τ (Elt F) Unit ℕ (UR sig nD τ) ℕ cfg0 c := (dats m 0 c).toRForget forgetOut

set_option backward.isDefEq.respectTransparency.types false in
theorem run_frame : θ_run defs (onTc (τ := τ) (main (F := F))) (s₀ m ρ) (RDat.FramePost cfg0 (rdats m) (V m)) :=
  Pipeline.RDat.θ_run_frame cfgs (0 : Fin 1) launch0 defs₀ Variants.none (rdats m) m ρ main
    (hbody := fun c => (body_obligationF m c).toRForget)
    (hshare := fun c => (dats m 0 c).share_full fun _ => rfl)
    (howed := fun _ _ => rfl) (V := V m) (hmain := hmain m Variants.none) (hA := A_eq m) (hΦ := fun _ _ => rfl)

/-- The frame: every weakly fair execution ends, without a fault, with the four arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 1 rfl).trans ((A_eq m c 1).trans (V_main_arg2 m c)),
      ((h c).2 main_arg3 (Pipeline.mem_restRefs_of main_arg3 (by decide) (by decide))).trans (V_main_arg3 m c)⟩) (run_frame m ρ)

end Cert.KernelIdeal.Body

end
-- ==== Proof.Spec.lean ====
import Idealize.ShloMosaic.PureOps.Ideal
import Idealize.ShloMosaic.Lib.ValueIdx

/-! The result both programs compute, as one function of the four argument arrays over the extended reals:
    query row `b` is row `sub b` of the entity table plus row `rel b` of the relation table, and entry `(b, j)`
    of the result is nine minus the Euclidean distance from query row `b` to entity row `j`. -/

noncomputable section

open scoped BigOperators

namespace Cert.Dist

open Idealize.ShloMosaic Idealize.ShloMosaic.ValueIdx

/-- The row of an `n`-row table a 32-bit index word selects: the word read signed, brought into `[0, n - 1]`. For a word
    already in range this is the word itself. -/
def rowOf (n : Nat) (hn : 0 < n) (x : BitVec 32) : Fin n := ⟨min x.toInt.toNat (n - 1), by omega⟩

theorem rowOf_val_of_lt (n : Nat) (hn : 0 < n) (x : BitVec 32) (hx : x.toNat < n) (hn' : n ≤ 2 ^ 31) :
    (rowOf n hn x).val = x.toNat := by
  have h1 : x.toInt = (x.toNat : Int) := by
    rw [BitVec.toInt_eq_toNat_cond]; split
    · rfl
    · omega
  show min x.toInt.toNat (n - 1) = x.toNat
  rw [h1, Int.toNat_natCast]; omega

/-- The query rows: entity row `sub b` plus relation row `rel b`, entry by entry. -/
def queryRows (sub rel : (⟨2, ![32, 1]⟩ : Shape).Idx → BitVec 32) (e : (⟨2, ![100000, 64]⟩ : Shape).Idx → EReal)
    (r : (⟨2, ![500, 64]⟩ : Shape).Idx → EReal) : (⟨2, ![32, 64]⟩ : Shape).Idx → EReal :=
  fun i => e (ix2 (rowOf 100000 (by decide) (sub (ix2 (i 0) 0))) (i 1)) + r (ix2 (rowOf 500 (by decide) (rel (ix2 (i 0) 0))) (i 1))

/-- The sum over the 64 features of the squared difference of a query row and an entity row. -/
def sqDist (q : (⟨2, ![32, 64]⟩ : Shape).Idx → EReal) (e : (⟨2, ![100000, 64]⟩ : Shape).Idx → EReal) (b : Fin 32) (j : Fin 100000) : EReal :=
  ∑ d : Fin 64, (q (ix2 b d) - e (ix2 j d)) * (q (ix2 b d) - e (ix2 j d))

/-- Nine minus the distance from query row `i 0` to entity row `i 1`. -/
def score (q : (⟨2, ![32, 64]⟩ : Shape).Idx → EReal) (e : (⟨2, ![100000, 64]⟩ : Shape).Idx → EReal) :
    (⟨2, ![32, 100000]⟩ : Shape).Idx → EReal :=
  fun i => Ideal.ofBits .f32 0x41100000#32 - Ideal.sqrt (sqDist q e (i 0) (i 1))

/-- Finite tables give finite query rows. -/
theorem queryRows_real (sub rel : (⟨2, ![32, 1]⟩ : Shape).Idx → BitVec 32) (e : (⟨2, ![100000, 64]⟩ : Shape).Idx → EReal)
    (r : (⟨2, ![500, 64]⟩ : Shape).Idx → EReal) (he : ∀ i, ∃ x : ℝ, e i = (x : EReal)) (hr : ∀ i, ∃ x : ℝ, r i = (x : EReal))
    (i : (⟨2, ![32, 64]⟩ : Shape).Idx) : ∃ x : ℝ, queryRows sub rel e r i = (x : EReal) := by
  obtain ⟨a, ha⟩ := he (ix2 (rowOf 100000 (by decide) (sub (ix2 (i 0) 0))) (i 1))
  obtain ⟨b, hb⟩ := hr (ix2 (rowOf 500 (by decide) (rel (ix2 (i 0) 0))) (i 1))
  exact ⟨a + b, by unfold queryRows; rw [ha, hb, EReal.coe_add]⟩

end Cert.Dist

end
-- ==== Proof.Algebra.lean ====
import Mathlib.Data.EReal.Operations
import Mathlib.Algebra.BigOperators.Ring.Finset
import Mathlib.Algebra.Order.BigOperators.Group.Finset
import Mathlib.Tactic.Ring

/-! The expansion of a squared Euclidean distance on the extended reals: for real vectors `q`, `e`,
    `|q|^2 + |e|^2 - 2 q·e = |q - e|^2`, and the right side is nonnegative, so taking the maximum with zero
    changes nothing. Every term is the image of a real number, so the identity is the real one carried
    through the embedding of the reals. -/

open scoped BigOperators

namespace Cert.Dist

/-- The embedding of the reals into the extended reals commutes with finite sums. -/
theorem coe_sum {ι : Type} (s : Finset ι) (f : ι → ℝ) :
    ((∑ d ∈ s, f d : ℝ) : EReal) = ∑ d ∈ s, (f d : EReal) := by
  classical
  induction s using Finset.induction_on with
  | empty => simp
  | insert a s ha ih => rw [Finset.sum_insert ha, Finset.sum_insert ha, EReal.coe_add, ih]

/-- The real identity: `|q|^2 + |e|^2 - 2 q·e = |q - e|^2`. -/
theorem expand_sq_real {ι : Type} [Fintype ι] (q e : ι → ℝ) :
    ((∑ d, q d * q d) + (∑ d, 1 * (e d * e d))) - 2 * (∑ d, q d * e d)
      = ∑ d, (q d - e d) * (q d - e d) := by
  rw [Finset.mul_sum, ← Finset.sum_add_distrib, ← Finset.sum_sub_distrib]
  exact Finset.sum_congr rfl (fun d _ => by ring)

theorem expand_sq {ι : Type} [Fintype ι] (q e : ι → ℝ) :
    max (((∑ d, (q d : EReal) * (q d : EReal)) + (∑ d, (1 : EReal) * ((e d : EReal) * (e d : EReal)))) - (2 : EReal) * (∑ d, (q d : EReal) * (e d : EReal))) 0
      = ∑ d, ((q d : EReal) - (e d : EReal)) * ((q d : EReal) - (e d : EReal)) := by
  -- each of the four sums is the image of the corresponding real sum
  have hA : (∑ d, (q d : EReal) * (q d : EReal)) = ((∑ d, q d * q d : ℝ) : EReal) := by
    rw [coe_sum]; exact Finset.sum_congr rfl (fun d _ => (EReal.coe_mul _ _).symm)
  have hB : (∑ d, (1 : EReal) * ((e d : EReal) * (e d : EReal))) = ((∑ d, 1 * (e d * e d) : ℝ) : EReal) := by
    rw [coe_sum]
    exact Finset.sum_congr rfl (fun d _ => by rw [EReal.coe_mul, EReal.coe_mul, EReal.coe_one])
  have hC : (∑ d, (q d : EReal) * (e d : EReal)) = ((∑ d, q d * e d : ℝ) : EReal) := by
    rw [coe_sum]; exact Finset.sum_congr rfl (fun d _ => (EReal.coe_mul _ _).symm)
  have hR : (∑ d, ((q d : EReal) - (e d : EReal)) * ((q d : EReal) - (e d : EReal)))
      = ((∑ d, (q d - e d) * (q d - e d) : ℝ) : EReal) := by
    rw [coe_sum]
    exact Finset.sum_congr rfl (fun d _ => by rw [EReal.coe_mul, EReal.coe_sub])
  have h2 : (2 : EReal) = ((2 : ℝ) : EReal) := rfl
  rw [hA, hB, hC, hR, h2, ← EReal.coe_mul, ← EReal.coe_add, ← EReal.coe_sub, expand_sq_real]
  -- a sum of squares is nonnegative
  exact max_eq_left (EReal.coe_nonneg.mpr (Finset.sum_nonneg (fun d _ => mul_self_nonneg _)))

end Cert.Dist
-- ==== Proof.Payload.lean ====
import proofs.«419847_j90314572300924_3_alg».proof.Proof.Gen.KernelIdeal.Skeleton
import proofs.«419847_j90314572300924_3_alg».proof.Proof.Spec
import proofs.«419847_j90314572300924_3_alg».proof.Proof.Algebra
import Idealize.ShloMosaic.PureOps.Ideal.Laws
import Idealize.ShloMosaic.Lib.ValueIdx
import Idealize.ShloMosaic.Lib.Pipeline.Value
import Idealize.ShloMosaic.Lib.ValueLayout

/-! Entry `(b, j)` of the kernel body's result, read as a function of query row `b` and table row `j` alone: the
    body forms `‖q_b‖²` by a sum along the features, `‖e_j‖²` and `q_b · e_j` by two contractions over the features,
    and returns nine minus the root of `max (‖q_b‖² + ‖e_j‖² − 2 q_b · e_j) 0`. First each contraction's operand
    indices are named coordinate by coordinate, then each operation is read at an index, and the three sums are
    brought to one sum over the 64 features; on finite rows the clamped expansion is the squared distance. -/

noncomputable section

open scoped BigOperators

namespace Cert.KernelIdeal.Payload

open Idealize.ShloMosaic Idealize.ShloMosaic.ValueIdx Cert.KernelIdeal Cert.KernelIdeal.Gen

/-! ## The two contractions' operand indices, axis by axis

Both contractions pair axis 1 of the left operand with axis 1 of the right one and have no batch axis: at result index
`(r, c)` and contraction coordinate `k` the left operand is read at `(r, k)` and the right one at `(c, k)`. -/

theorem lhs_qe_0 (i : S32x12544.Idx) (q : dot_S32x64_S12544x64_S32x12544_1_1_0_0_n_n.contr.Idx) :
    (dot_S32x64_S12544x64_S32x12544_1_1_0_0_n_n.lhsIdx i q 0).val = (i 0).val := by
  unfold DotDims.lhsIdx
  rw [dif_neg (show ¬(0 : Fin S32x64.rank) ∈ dot_S32x64_S12544x64_S32x12544_1_1_0_0_n_n.lhsBatch by decide),
    dif_pos (show (0 : Fin S32x64.rank) ∈ dot_S32x64_S12544x64_S32x12544_1_1_0_0_n_n.lhsNonContracting by decide)]
  rfl

theorem lhs_qe_1 (i : S32x12544.Idx) (q : dot_S32x64_S12544x64_S32x12544_1_1_0_0_n_n.contr.Idx) :
    (dot_S32x64_S12544x64_S32x12544_1_1_0_0_n_n.lhsIdx i q 1).val = (q ⟨0, by decide⟩).val :=
  dot_S32x64_S12544x64_S32x12544_1_1_0_0_n_n.lhsIdx_val_of_single rfl i q

theorem rhs_qe_0 (i : S32x12544.Idx) (q : dot_S32x64_S12544x64_S32x12544_1_1_0_0_n_n.contr.Idx) :
    (dot_S32x64_S12544x64_S32x12544_1_1_0_0_n_n.rhsIdx i q 0).val = (i 1).val := by
  unfold DotDims.rhsIdx
  rw [dif_neg (show ¬(0 : Fin S12544x64.rank) ∈ dot_S32x64_S12544x64_S32x12544_1_1_0_0_n_n.rhsBatch by decide),
    dif_pos (show (0 : Fin S12544x64.rank) ∈ dot_S32x64_S12544x64_S32x12544_1_1_0_0_n_n.rhsNonContracting by decide)]
  rfl

theorem rhs_qe_1 (i : S32x12544.Idx) (q : dot_S32x64_S12544x64_S32x12544_1_1_0_0_n_n.contr.Idx) :
    (dot_S32x64_S12544x64_S32x12544_1_1_0_0_n_n.rhsIdx i q 1).val = (q ⟨0, by decide⟩).val :=
  dot_S32x64_S12544x64_S32x12544_1_1_0_0_n_n.rhsIdx_val_of_single rfl i q

theorem lhs_ee_0 (i : S1x12544.Idx) (q : dot_S1x64_S12544x64_S1x12544_1_1_0_0_n_n.contr.Idx) :
    (dot_S1x64_S12544x64_S1x12544_1_1_0_0_n_n.lhsIdx i q 0).val = (i 0).val := by
  unfold DotDims.lhsIdx
  rw [dif_neg (show ¬(0 : Fin S1x64.rank) ∈ dot_S1x64_S12544x64_S1x12544_1_1_0_0_n_n.lhsBatch by decide),
    dif_pos (show (0 : Fin S1x64.rank) ∈ dot_S1x64_S12544x64_S1x12544_1_1_0_0_n_n.lhsNonContracting by decide)]
  rfl

theorem lhs_ee_1 (i : S1x12544.Idx) (q : dot_S1x64_S12544x64_S1x12544_1_1_0_0_n_n.contr.Idx) :
    (dot_S1x64_S12544x64_S1x12544_1_1_0_0_n_n.lhsIdx i q 1).val = (q ⟨0, by decide⟩).val :=
  dot_S1x64_S12544x64_S1x12544_1_1_0_0_n_n.lhsIdx_val_of_single rfl i q

theorem rhs_ee_0 (i : S1x12544.Idx) (q : dot_S1x64_S12544x64_S1x12544_1_1_0_0_n_n.contr.Idx) :
    (dot_S1x64_S12544x64_S1x12544_1_1_0_0_n_n.rhsIdx i q 0).val = (i 1).val := by
  unfold DotDims.rhsIdx
  rw [dif_neg (show ¬(0 : Fin S12544x64.rank) ∈ dot_S1x64_S12544x64_S1x12544_1_1_0_0_n_n.rhsBatch by decide),
    dif_pos (show (0 : Fin S12544x64.rank) ∈ dot_S1x64_S12544x64_S1x12544_1_1_0_0_n_n.rhsNonContracting by decide)]
  rfl

theorem rhs_ee_1 (i : S1x12544.Idx) (q : dot_S1x64_S12544x64_S1x12544_1_1_0_0_n_n.contr.Idx) :
    (dot_S1x64_S12544x64_S1x12544_1_1_0_0_n_n.rhsIdx i q 1).val = (q ⟨0, by decide⟩).val :=
  dot_S1x64_S12544x64_S1x12544_1_1_0_0_n_n.rhsIdx_val_of_single rfl i q

/-! ## The two contractions read at an index -/

/-- The product of the query block with the table block, contracted over the features: entry `(b, j)` is the sum over
    the features of query row `b` times table row `j`. -/
theorem dot_qe_apply (x : FVec Ideal S32x64 .f32) (y : FVec Ideal S12544x64 .f32) (b : Fin 32) (j : Fin 12544) :
    matmul dot_S32x64_S12544x64_S32x12544_1_1_0_0_n_n (some .fp32) x y (constant S32x12544 .f32 0x00000000#32) (ix2 b j)
      = ∑ d : Fin 64, x (ix2 b d) * y (ix2 j d) := by
  simp only [matmul]
  rw [Ideal.matmul_constant_zero_apply,
    ← Equiv.sum_comp (contrEquiv1 dot_S32x64_S12544x64_S32x12544_1_1_0_0_n_n 64 rfl rfl).symm]
  refine Finset.sum_congr rfl fun d _ => ?_
  have hd := contrEquiv1_symm_val dot_S32x64_S12544x64_S32x12544_1_1_0_0_n_n 64 rfl rfl d
  have el : dot_S32x64_S12544x64_S32x12544_1_1_0_0_n_n.lhsIdx (ix2 b j)
      ((contrEquiv1 dot_S32x64_S12544x64_S32x12544_1_1_0_0_n_n 64 rfl rfl).symm d) = ix2 b d :=
    funext fun a => Fin.ext (by
      match a with
      | ⟨0, _⟩ => exact lhs_qe_0 _ _
      | ⟨1, _⟩ => exact (lhs_qe_1 _ _).trans hd)
  have er : dot_S32x64_S12544x64_S32x12544_1_1_0_0_n_n.rhsIdx (ix2 b j)
      ((contrEquiv1 dot_S32x64_S12544x64_S32x12544_1_1_0_0_n_n 64 rfl rfl).symm d) = ix2 j d :=
    funext fun a => Fin.ext (by
      match a with
      | ⟨0, _⟩ => exact rhs_qe_0 _ _
      | ⟨1, _⟩ => exact (rhs_qe_1 _ _).trans hd)
  rw [el, er]

/-- A row of ones against the table block, contracted over the features: entry `(u, j)` is the sum over the features
    of the left factor's entry times table row `j`. -/
theorem dot_ee_apply (x : FVec Ideal S1x64 .f32) (y : FVec Ideal S12544x64 .f32) (u : Fin 1) (j : Fin 12544) :
    matmul dot_S1x64_S12544x64_S1x12544_1_1_0_0_n_n (some .fp32) x y (constant S1x12544 .f32 0x00000000#32) (ix2 u j)
      = ∑ d : Fin 64, x (ix2 u d) * y (ix2 j d) := by
  simp only [matmul]
  rw [Ideal.matmul_constant_zero_apply,
    ← Equiv.sum_comp (contrEquiv1 dot_S1x64_S12544x64_S1x12544_1_1_0_0_n_n 64 rfl rfl).symm]
  refine Finset.sum_congr rfl fun d _ => ?_
  have hd := contrEquiv1_symm_val dot_S1x64_S12544x64_S1x12544_1_1_0_0_n_n 64 rfl rfl d
  have el : dot_S1x64_S12544x64_S1x12544_1_1_0_0_n_n.lhsIdx (ix2 u j)
      ((contrEquiv1 dot_S1x64_S12544x64_S1x12544_1_1_0_0_n_n 64 rfl rfl).symm d) = ix2 u d :=
    funext fun a => Fin.ext (by
      match a with
      | ⟨0, _⟩ => exact lhs_ee_0 _ _
      | ⟨1, _⟩ => exact (lhs_ee_1 _ _).trans hd)
  have er : dot_S1x64_S12544x64_S1x12544_1_1_0_0_n_n.rhsIdx (ix2 u j)
      ((contrEquiv1 dot_S1x64_S12544x64_S1x12544_1_1_0_0_n_n 64 rfl rfl).symm d) = ix2 j d :=
    funext fun a => Fin.ext (by
      match a with
      | ⟨0, _⟩ => exact rhs_ee_0 _ _
      | ⟨1, _⟩ => exact (rhs_ee_1 _ _).trans hd)
  rw [el, er]

/-! ## The three literals -/

/-- The word of `1.0` denotes one. -/
theorem ofBits_one : Ideal.ofBits .f32 0x3F800000#32 = 1 := by
  rw [show (1 : EReal) = ((1 : ℝ) : EReal) by norm_cast]
  simp [Ideal.ofBits, Ideal.ieee, -EReal.coe_mul]; norm_num

/-- The word of `2.0` denotes two. -/
theorem ofBits_two : Ideal.ofBits .f32 0x40000000#32 = 2 := by
  rw [show (2 : EReal) = ((2 : ℝ) : EReal) by norm_cast]
  simp [Ideal.ofBits, Ideal.ieee, -EReal.coe_mul]; norm_num

/-! ## The lane sum, and the two broadcasts -/

/-- The sum over the features of a `[32, 64]` block, read at row `b`. -/
theorem rowsum_apply (x : FVec Ideal S32x64 .f32) (b : Fin 32) :
    multiReduction .add [1] S32 x 0x00000000#32 reduces_S32x64_S32 (.inl rfl) rfl (ix1 b) = ∑ d : Fin 64, x (ix2 b d) := by
  refine (Ideal.multiReduction_add_single x _ reduces_S32x64_S32 _ _ (ix1 b)).trans ?_
  refine Finset.sum_congr rfl fun d _ => congrArg x (funext fun a => Fin.ext ?_)
  match a with
  | ⟨0, _⟩ => rfl
  | ⟨1, _⟩ => rfl

/-- A `[32]` vector kept as a column `[32, 1]` and broadcast along the lanes reads, at `(b, j)`, its entry `b`. -/
theorem col_apply {α : Type} (v : S32.Idx → α) (b : Fin 32) (j : Fin 12544) :
    broadcastTo S32x12544 (shapeCast S32x1 v shapeCasts_S32_S32x1) broadcasts_S32x1_S32x12544 (ix2 b j) = v (ix1 b) := by
  refine (broadcastTo_apply _ _ (ix2 b j) (ix2 b (0 : Fin 1)) fun a => ?_).trans ?_
  · match a with
    | ⟨0, _⟩ => rfl
    | ⟨1, _⟩ => rfl
  · exact shapeCast_apply v _ (ix2 b (0 : Fin 1)) (ix1 b) (by
      rw [Shape.rowMajor_val_one, Shape.rowMajor_val_two]
      show b.val = b.val * 1 + 0
      omega)

/-- A row `[1, 12544]` broadcast over the 32 rows reads, at `(b, j)`, its entry `j`. -/
theorem row_apply {α : Type} (v : S1x12544.Idx → α) (b : Fin 32) (j : Fin 12544) :
    broadcastTo S32x12544 v broadcasts_S1x12544_S32x12544 (ix2 b j) = v (ix2 (0 : Fin 1) j) :=
  broadcastTo_1b_ab_apply v _ b j

/-! ## The payload at an index -/

/-- Entry `(b, j)` of the kernel body's result, with no hypothesis on the blocks: nine minus the root of the
    clamped `‖q_b‖² + ‖e_j‖² − 2 q_b·e_j`, each term a sum over the 64 features. -/
theorem pay_raw (x0 : Vec Ideal S32x64 .f32) (x2 : Vec Ideal S12544x64 .f32) (b : Fin 32) (j : Fin 12544) :
    k0_pay1 (F := Ideal) x0 x2 (ix2 b j)
      = Ideal.ofBits .f32 0x41100000#32 - Ideal.sqrt (max
          (((∑ d : Fin 64, x0 (ix2 b d) * x0 (ix2 b d)) + (∑ d : Fin 64, (1 : EReal) * (x2 (ix2 j d) * x2 (ix2 j d))))
            - (2 : EReal) * (∑ d : Fin 64, x0 (ix2 b d) * x2 (ix2 j d))) 0) := by
  unfold k0_pay1
  simp only [shapeCast_self]
  have hs : ∀ (v : FVec Ideal S32x12544 .f32) (i : S32x12544.Idx), sqrt v i = Ideal.sqrt (v i) := fun _ _ => rfl
  rw [subf_apply, broadcast_apply, hs, maximumf_apply, broadcast_apply, subf_apply, addf_apply, mulf_apply,
    broadcast_apply, col_apply, row_apply, rowsum_apply, dot_ee_apply, dot_qe_apply]
  simp only [mulf_apply, broadcast_apply, Ideal.ofBits_def]
  rw [ofBits_one, ofBits_two, Ideal.ofBits_zero_f32]

/-- Entry `(b, j)` reads the table block only on its row `j`: two blocks that agree on that row give the same entry,
    whatever the other rows hold. -/
theorem pay_local (x0 : Vec Ideal S32x64 .f32) (x2 x2' : Vec Ideal S12544x64 .f32) (b : Fin 32) (j : Fin 12544)
    (h : ∀ d : Fin 64, x2 (ix2 j d) = x2' (ix2 j d)) :
    k0_pay1 (F := Ideal) x0 x2 (ix2 b j) = k0_pay1 (F := Ideal) x0 x2' (ix2 b j) := by
  rw [pay_raw, pay_raw]
  simp only [h]

/-- On a finite query row and a finite table row, entry `(b, j)` is nine minus the Euclidean distance between them:
    the clamped expansion `‖q‖² + ‖e‖² − 2 q·e` is the sum of the squared differences. -/
theorem pay_apply (x0 : Vec Ideal S32x64 .f32) (x2 : Vec Ideal S12544x64 .f32) (b : Fin 32) (j : Fin 12544)
    (hq : ∀ d : Fin 64, ∃ x : ℝ, x0 (ix2 b d) = (x : EReal)) (he : ∀ d : Fin 64, ∃ x : ℝ, x2 (ix2 j d) = (x : EReal)) :
    k0_pay1 (F := Ideal) x0 x2 (ix2 b j)
      = Ideal.ofBits .f32 0x41100000#32 - Ideal.sqrt (∑ d : Fin 64, (x0 (ix2 b d) - x2 (ix2 j d)) * (x0 (ix2 b d) - x2 (ix2 j d))) := by
  choose q hq' using hq
  choose e he' using he
  rw [pay_raw]
  simp only [hq', he']
  rw [Cert.Dist.expand_sq q e]

end Cert.KernelIdeal.Payload

end
-- ==== Proof.Exact.lean ====
import proofs.«419847_j90314572300924_3_alg».proof.Proof.Body
import proofs.«419847_j90314572300924_3_alg».proof.Proof.Payload

set_option maxRecDepth 16384

/-! Over the extended reals the result's staging buffer is named: column `j` of the body's value reads the table's
    block on its row `j` alone, so the columns that are written back — those whose row lies inside the table — do
    not depend on what the staging buffer held past the table's end. With that the body obligation holds of the
    named contents, and the run ends with the result array at what the library computes from them. -/

noncomputable section

namespace Cert.KernelIdeal.Exact

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- At every point the result's block has all 32 rows and as many columns as the table's block has rows inside the
    table, and the table's block has all 64 features. -/
theorem cut_sizes : ∀ t : Fin cfg0.N, win0_2.xsize (grid0.coords t) 0 = 32
    ∧ win0_2.xsize (grid0.coords t) 1 = win0_1.xsize (grid0.coords t) 0 ∧ win0_1.xsize (grid0.coords t) 1 = 64
    ∧ win0_1.xsize (grid0.coords t) 0 ≤ 12544 :=
  (by decide +kernel : ∀ t : Fin grid0.N, win0_2.xsize (grid0.coords t) 0 = 32
    ∧ win0_2.xsize (grid0.coords t) 1 = win0_1.xsize (grid0.coords t) 0 ∧ win0_1.xsize (grid0.coords t) 1 = 64
    ∧ win0_1.xsize (grid0.coords t) 0 ≤ 12544)

/-- Two fillings of the table's staging buffer agree on every row inside the table. -/
theorem fill_row_eq (t : Fin cfg0.N) (d d' : Vec Ideal S12544x64 .f32) (g : (win0_1.xblock (grid0.coords t)).Idx → EReal)
    (j : Fin 12544) (hj : j.val < win0_1.xsize (grid0.coords t) 0) (dd : Fin 64) :
    win0_1.fill (grid0.coords t) d g (ix2 j dd) = win0_1.fill (grid0.coords t) d' g (ix2 j dd) := by
  have hmv : win0_1.moved (grid0.coords t) (ix2 j dd) = true := by
    rw [Window.moved_iff]
    intro a
    match a with
    | ⟨0, _⟩ => exact hj
    | ⟨1, _⟩ => show dd.val < win0_1.xsize (grid0.coords t) 1; rw [(cut_sizes t).2.2.1]; exact dd.isLt
  unfold Window.fill
  rw [dif_pos hmv, dif_pos hmv]

/-- The written-back part of the body's value does not depend on how the table's staging buffer is filled out. -/
theorem cut_pay_local (t : Fin cfg0.N) (q : Vec Ideal S32x64 .f32) (d d' : Vec Ideal S12544x64 .f32)
    (g : (win0_1.xblock (grid0.coords t)).Idx → EReal) :
    win0_2.cut (grid0.coords t) (k0_pay1 (F := Ideal) q (win0_1.fill (grid0.coords t) d g))
      = win0_2.cut (grid0.coords t) (k0_pay1 (F := Ideal) q (win0_1.fill (grid0.coords t) d' g)) := by
  funext y
  have h0 : (y 0).val < 32 := lt_of_lt_of_eq (y 0).isLt (cut_sizes t).1
  have h1 : (y 1).val < win0_1.xsize (grid0.coords t) 0 := lt_of_lt_of_eq (y 1).isLt (cut_sizes t).2.1
  have h1' : (y 1).val < 12544 := lt_of_lt_of_le h1 (cut_sizes t).2.2.2
  have hx : win0_2.xinj (grid0.coords t) y = ix2 (⟨(y 0).val, h0⟩ : Fin 32) (⟨(y 1).val, h1'⟩ : Fin 12544) :=
    funext fun a => match a with | ⟨0, _⟩ => rfl | ⟨1, _⟩ => rfl
  show k0_pay1 (F := Ideal) q (win0_1.fill (grid0.coords t) d g) (win0_2.xinj (grid0.coords t) y)
    = k0_pay1 (F := Ideal) q (win0_1.fill (grid0.coords t) d' g) (win0_2.xinj (grid0.coords t) y)
  rw [hx]
  exact Cert.KernelIdeal.Payload.pay_local q _ _ _ _ (fun dd => fill_row_eq t d d' g _ h1 dd)

/-! ## The body obligation of the named contents -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        ((cfg0.win 1).fill (cfg0.grid.coords t) d ((cfg0.win 1).cut (cfg0.grid.coords t) ((dats m 0 c).after 1 t))))
    ∗ (∃ d, owns (c : Thread nD τ) (st0_2 t) fullShare
        ((cfg0.win 2).fill (cfg0.grid.coords t) d ((cfg0.win 2).cut (cfg0.grid.coords t) ((dats m 0 c).after 2 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2, cut_tfill]
  iintro ⟨HΦ, Ho, ⟨%d0, H0⟩, ⟨%d1, H1⟩, ⟨%d2, H2⟩⟩
  iapply (sound_kernel c Set.univ (grid0.coords t) _ _ _ _ _ _ (iblk m c 0 t)
    ((cfg0.win 1).fill (cfg0.grid.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexists d1; iexact H1
  iexists (k0_pay1 (F := Ideal) (iblk m c 0 t) ((cfg0.win 1).fill (cfg0.grid.coords t) d1 (iblk m c 1 t)))
  rw [show (cfg0.win 2).fill (cfg0.grid.coords t)
        (k0_pay1 (F := Ideal) (iblk m c 0 t) ((cfg0.win 1).fill (cfg0.grid.coords t) d1 (iblk m c 1 t)))
        ((cfg0.win 2).cut (cfg0.grid.coords t) (k0_pay1 (F := Ideal) (iblk m c 0 t) (tfill m c t)))
      = k0_pay1 (F := Ideal) (iblk m c 0 t) ((cfg0.win 1).fill (cfg0.grid.coords t) d1 (iblk m c 1 t)) from
    Window.fill_congr_cut _ _ (cut_pay_local t (iblk m c 0 t) d1 _ (iblk m c 1 t))]
  iexact H2

theorem body_obligation (c : Dev nD) :
    BodyObligationLoose (dats (F := Ideal) m 0 c) (defs₀ (F := Ideal)) Variants.none () Set.univ := fun t => by
  rw [bigSep_W0, bigSep_W0]
  exact sound_body m c t

set_option backward.isDefEq.respectTransparency.types false in
/-- The run: every weakly fair execution ends, without a fault, each array of the pipeline at what the library
    computes from the named contents, every other buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

end Cert.KernelIdeal.Exact

end
-- ==== Proof.Blocks.lean ====
import proofs.«419847_j90314572300924_3_alg».proof.Proof.Exact
import proofs.«419847_j90314572300924_3_alg».proof.Proof.Spec

set_option maxRecDepth 16384

/-! From the eight blocks to the result array. Point `t` writes back columns 12544·t … of the result, as many as the
    table's block `t` has rows inside the table; entry `(b, j)` of what it writes is the body's value at `(b, j)`,
    which for finite query rows and finite table rows is nine minus the distance from query row `b` to table row
    12544·t + j: the score at the array's index of that entry. The blocks cover the 100000 columns, so the result
    array ends holding the score everywhere. -/

noncomputable section

open scoped BigOperators

namespace Cert.KernelIdeal.Blocks

open Cert.KernelIdeal Cert.KernelIdeal.Gen Cert.KernelIdeal.Body Cert.KernelIdeal.Exact
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

/-- The query rows and the entity table as the region finds them. -/
abbrev Q (c : Dev nD) : S32x64.Idx → EReal := V m c main_call0_v4
abbrev T (c : Dev nD) : S100000x64.Idx → EReal := V m c main_arg2

/-- Where the windows' blocks sit: the queries' block is the whole array at every point; the table's block `t` starts
    at row 12544·t, the result's at column 12544·t. -/
theorem idx_facts : ∀ t : Fin cfg0.N, win0_0.index t 0 = 0 ∧ win0_0.index t 1 = 0
    ∧ win0_1.index t 0 = t.val ∧ win0_1.index t 1 = 0 ∧ win0_2.index t 0 = 0 ∧ win0_2.index t 1 = t.val :=
  (by decide +kernel : ∀ t : Fin grid0.N, win0_0.index t 0 = 0 ∧ win0_0.index t 1 = 0
    ∧ win0_1.index t 0 = t.val ∧ win0_1.index t 1 = 0 ∧ win0_2.index t 0 = 0 ∧ win0_2.index t 1 = t.val)

/-- The number of the table's rows block `t` holds: all 12544 but at the last point, where the table ends. -/
theorem rows_inside : ∀ t : Fin cfg0.N, 12544 * t.val + win0_1.xsize (grid0.coords t) 0 ≤ 100000
    ∧ (100000 ≤ 12544 * (t.val + 1) → 12544 * t.val + win0_1.xsize (grid0.coords t) 0 = 100000)
    ∧ (12544 * (t.val + 1) ≤ 100000 → win0_1.xsize (grid0.coords t) 0 = 12544) :=
  (by decide +kernel : ∀ t : Fin grid0.N, 12544 * t.val + win0_1.xsize (grid0.coords t) 0 ≤ 100000
    ∧ (100000 ≤ 12544 * (t.val + 1) → 12544 * t.val + win0_1.xsize (grid0.coords t) 0 = 100000)
    ∧ (12544 * (t.val + 1) ≤ 100000 → win0_1.xsize (grid0.coords t) 0 = 12544))

/-- The queries' block read at an entry is the query rows' entry. -/
theorem read_q (c : Dev nD) (t : Fin cfg0.N) (b : Fin 32) (d : Fin 64) :
    (iblk m c 0 t : S32x64.Idx → EReal) (ix2 b d) = Q m c (ix2 b d) := by
  show V m c main_call0_v4 (((cfg0.win 0).blk t).view.emb (ix2 b d)) = V m c main_call0_v4 (ix2 b d)
  refine congrArg _ (funext fun a => Fin.ext ?_)
  match a with
  | ⟨0, _⟩ =>
    show win0_0.index t 0 * 32 + 1 * b.val = b.val
    rw [(idx_facts t).1]; omega
  | ⟨1, _⟩ =>
    show win0_0.index t 1 * 64 + 1 * d.val = d.val
    rw [(idx_facts t).2.1]; omega

/-- The table's filled block read on a row inside the table is the table's row 12544·t + j. -/
theorem read_t (c : Dev nD) (t : Fin cfg0.N) (j : Fin 12544) (hj : j.val < win0_1.xsize (grid0.coords t) 0) (d : Fin 64)
    (hrow : 12544 * t.val + j.val < 100000) :
    tfill m c t (ix2 j d) = T m c (ix2 (⟨12544 * t.val + j.val, hrow⟩ : Fin 100000) d) := by
  have hmv : win0_1.moved (grid0.coords t) (ix2 j d) = true := by
    rw [Window.moved_iff]
    intro a
    match a with
    | ⟨0, _⟩ => exact hj
    | ⟨1, _⟩ => show d.val < win0_1.xsize (grid0.coords t) 1; rw [(cut_sizes t).2.2.1]; exact d.isLt
  unfold tfill
  show win0_1.fill (grid0.coords t) _ (iblk m c 1 t) (ix2 j d) = _
  unfold Window.fill
  rw [dif_pos hmv]
  show V m c main_arg2 (((cfg0.win 1).blk t).view.emb _) = V m c main_arg2 _
  refine congrArg _ (funext fun a => Fin.ext ?_)
  match a with
  | ⟨0, _⟩ =>
    show win0_1.index t 0 * 12544 + 1 * j.val = 12544 * t.val + j.val
    rw [(idx_facts t).2.2.1]; omega
  | ⟨1, _⟩ =>
    show win0_1.index t 1 * 64 + 1 * d.val = d.val
    rw [(idx_facts t).2.2.2.1]; omega

/-- What point `t` writes back is its block of the score of the query rows against the table. -/
theorem flushed_eq (c : Dev nD) (hQ : ∀ i, ∃ x : ℝ, Q m c i = (x : EReal)) (hT : ∀ i, ∃ x : ℝ, T m c i = (x : EReal)) (t : Fin cfg0.N) :
    (dats m 0 c).flushed 2 t = ((cfg0.win 2).blk t).view.read (Elt Ideal) (Cert.Dist.score (Q m c) (T m c)) := by
  funext y
  have h0 : (y 0).val < 32 := lt_of_lt_of_eq (y 0).isLt (cut_sizes t).1
  have h1 : (y 1).val < win0_1.xsize (grid0.coords t) 0 := lt_of_lt_of_eq (y 1).isLt (cut_sizes t).2.1
  have h1' : (y 1).val < 12544 := lt_of_lt_of_le h1 (cut_sizes t).2.2.2
  have hrow : 12544 * t.val + (y 1).val < 100000 := by have := (rows_inside t).1; omega
  have hx : win0_2.xinj (grid0.coords t) y = ix2 (⟨(y 0).val, h0⟩ : Fin 32) (⟨(y 1).val, h1'⟩ : Fin 12544) :=
    funext fun a => match a with | ⟨0, _⟩ => rfl | ⟨1, _⟩ => rfl
  have hemb : ((cfg0.win 2).blk t).view.emb y = ix2 (⟨(y 0).val, h0⟩ : Fin 32) (⟨12544 * t.val + (y 1).val, hrow⟩ : Fin 100000) := by
    refine funext fun a => Fin.ext ?_
    match a with
    | ⟨0, _⟩ =>
      show win0_2.index t 0 * 32 + 1 * (y 0).val = (y 0).val
      rw [(idx_facts t).2.2.2.2.1]; omega
    | ⟨1, _⟩ =>
      show win0_2.index t 1 * 12544 + 1 * (y 1).val = 12544 * t.val + (y 1).val
      rw [(idx_facts t).2.2.2.2.2]; omega
  show (k0_pay1 (F := Ideal) (iblk m c 0 t) (tfill m c t)) (win0_2.xinj (grid0.coords t) y)
    = Cert.Dist.score (Q m c) (T m c) (((cfg0.win 2).blk t).view.emb y)
  rw [hx, hemb]
  rw [Cert.KernelIdeal.Payload.pay_apply (iblk m c 0 t) (tfill m c t) _ _
    (fun d => by rw [read_q]; exact hQ _) (fun d => by rw [read_t m c t _ h1 d hrow]; exact hT _)]
  unfold Cert.Dist.score Cert.Dist.sqDist
  refine congrArg (fun s => Ideal.ofBits .f32 0x41100000#32 - Ideal.sqrt s) (Finset.sum_congr rfl fun d _ => ?_)
  rw [read_q, read_t m c t _ h1 d hrow]

/-- Every column of the result lies in the block of the point that holds its table row. -/
theorem cover (i : S32x100000.Idx) : ∃ t : Fin cfg0.N, (cfg0.win 2).flush t = true ∧ i ∈ ((cfg0.win 2).blk t).view.set := by
  have hi : (i 1).val < 100000 := (i 1).isLt
  have hi0 : (i 0).val < 32 := (i 0).isLt
  have ht : (i 1).val / 12544 < cfg0.N := by rw [show cfg0.N = 8 from N_0]; omega
  refine ⟨⟨(i 1).val / 12544, ht⟩, flush0_2 _, ?_⟩
  set t : Fin cfg0.N := ⟨(i 1).val / 12544, ht⟩ with htdef
  show i ∈ ((View.whole main_v0).slice (win0_2.rect t)).set
  rw [View.set_slice_whole, Rect.mem_set_unit]
  intro a
  have htv : t.val = (i 1).val / 12544 := rfl
  match a with
  | ⟨0, _⟩ =>
    show win0_2.index t 0 * 32 ≤ (i 0).val ∧ (i 0).val < win0_2.index t 0 * 32 + win0_2.xsize (grid0.coords t) 0
    rw [(idx_facts t).2.2.2.2.1, (cut_sizes t).1]; omega
  | ⟨1, _⟩ =>
    show win0_2.index t 1 * 12544 ≤ (i 1).val ∧ (i 1).val < win0_2.index t 1 * 12544 + win0_2.xsize (grid0.coords t) 1
    rw [(idx_facts t).2.2.2.2.2, (cut_sizes t).2.1]
    have hr := rows_inside t
    by_cases hlast : 12544 * (t.val + 1) ≤ 100000
    · have := hr.2.2 hlast; omega
    · have := hr.2.1 (by omega); omega

/-- The result array after the run is the score of the query rows against the table. -/
theorem final (c : Dev nD) (hQ : ∀ i, ∃ x : ℝ, Q m c i = (x : EReal)) (hT : ∀ i, ∃ x : ℝ, T m c i = (x : EReal)) :
    (dats m 0 c).arrAt 2 cfg0.N = Cert.Dist.score (Q m c) (T m c) :=
  (dats m 0 c).arrAt_eq_of_cover 2 (Cert.Dist.score (Q m c) (T m c)) (fun t _ => flushed_eq m c hQ hT t) cover

end Cert.KernelIdeal.Blocks

end
-- ==== Proof.RefValue.lean ====
import proofs.«419847_j90314572300924_3_alg».proof.Proof.Gen.ReferenceIdeal.Run
import proofs.«419847_j90314572300924_3_alg».proof.Proof.Gen.ReferenceIdeal.Read
import proofs.«419847_j90314572300924_3_alg».proof.Proof.Spec
import Idealize.ShloMosaic.Lib.ValueIdx
import Idealize.ShloMosaic.Lib.StableHlo.Predicate
import Idealize.ShloMosaic.Lib.IdealHost

/-! The reference's value. Its query rows are entity row `sub b` plus relation row `rel b`, each index word first wrapped
    ("if negative, add the table's row count") and then read by a row gather that reads the word signed and brings it into
    the table. For a word in range the wrap returns the word itself, so the gathered row is the row the specification's
    `rowOf` selects; the rest of the program, read entry by entry, is nine minus the square root of the sum over the 64
    features of the squared differences: `Cert.Dist.score (Cert.Dist.queryRows sub rel e r) e`. -/

noncomputable section

open scoped BigOperators

namespace Cert.Dist.Ref

open Idealize.ShloMosaic Idealize.ShloMosaic.ValueIdx

section Rows
variable {α : Type}

/-- The dimension numbers of a row gather: a table `[N, D]`, one start index per result row (`[R, 1]`), the whole
    row of `D` entries as the slice, the row axis collapsed. -/
abbrev rowDims (N R D : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The row gather read at `(b, j)`: the table at row `idx[b, 0]`, read signed and brought into `[0, N - 1]`, column `j`. -/
theorem gather_rows_apply {N R D w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (y : (⟨2, ![R, D]⟩ : Shape).Idx) :
    Host.gather (rowDims N R D wf) x idx y
      = x (ix2 ⟨min (idx (ix2 (y 0) 0)).toInt.toNat (N - 1), by omega⟩ (y 1)) := by
  unfold Host.gather
  congr 1
  funext a
  refine Fin.ext ?_
  match a with
  | ⟨0, _⟩ =>
    show (rowDims N R D wf).start y idx 0 + (rowDims N R D wf).batchCoord y 0 + (rowDims N R D wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R D wf).startIndexMap from List.mem_singleton.mpr rfl)]
    have hsi : (rowDims N R D wf).siIdx y ⟨List.idxOf (0 : Fin 2) (rowDims N R D wf).startIndexMap,
        List.idxOf_lt_length_iff.2 (List.mem_singleton.mpr rfl)⟩ = ix2 (y 0) 0 := by
      funext b; refine Fin.ext ?_
      match b with
      | ⟨0, _⟩ => rfl
      | ⟨1, _⟩ => rfl
    rw [hsi]
    rfl
  | ⟨1, _⟩ =>
    show (rowDims N R D wf).start y idx 1 + (rowDims N R D wf).batchCoord y 1 + (rowDims N R D wf).offCoord y 1 = (y 1).val
    rw [GatherDims.batchCoord_eq_zero _ _ _ List.not_mem_nil]
    unfold GatherDims.start
    rw [dif_neg (show (1 : Fin 2) ∉ (rowDims N R D wf).startIndexMap from (by decide : (1 : Fin 2) ∉ ([0] : List (Fin 2))))]
    unfold GatherDims.offCoord
    rw [dif_pos (show (1 : Fin 2) ∈ (rowDims N R D wf).sKept from
      (GatherDims.mem_sKept _ _).mpr ⟨(by decide : (1 : Fin 2) ∉ ([0] : List (Fin 2))), List.not_mem_nil⟩)]
    simp only [Nat.zero_add, Nat.add_zero]
    rfl

end Rows

section Words

/-- A 32-bit word below `2 ^ 31` is non-negative read signed, so "if it is negative add `n`" returns the word itself. -/
theorem wrap_eq (n x : BitVec 32) (hx : x.toNat < 2 ^ 31) :
    Scalar.select (IntOp.cmpi .slt x 0#32) (IntOp.addi x n) x = x := by
  have h0 : IntOp.cmpi .slt x 0#32 = 0#1 := by
    refine eq_zero_of_ne_one fun h => ?_
    have := (StableHlo.Predicate.slt_iff_toNat hx (by decide)).mp h
    exact absurd this (by simp)
  rw [h0, select_zero]

end Words

section Value

open Cert.ReferenceIdeal Cert.ReferenceIdeal.Gen Cert.ReferenceIdeal.Read

variable (sub rel : (⟨S32x1, .i32⟩ : BufTy).Contents (Elt Ideal))
  (e : (⟨S100000x64, .f32⟩ : BufTy).Contents (Elt Ideal)) (r : (⟨S500x64, .f32⟩ : BufTy).Contents (Elt Ideal))

/-- The wrapped entity indices are the index words themselves when these are in range. -/
theorem wrapped_sub (hsub : ∀ b : Fin 32, (sub (ix2 b 0)).toNat < 100000) (j : S32x1.Idx) :
    val_main_v6 (F := Ideal) sub j = sub (ix2 (j 0) 0) := by
  rw [val_main_v6_apply, val_main_v5_apply, val_main_v2_apply, val_main_v4_apply, val_main_v1_apply, val_main_c_apply,
    val_main_v0_apply]
  have hj : idx_main_v0 (idx_main_v6 j) = ix2 (j 0) 0 := by
    funext a; match a with | ⟨0, _⟩ => exact Fin.ext (Nat.div_one _) | ⟨1, _⟩ => rfl
  rw [hj]
  exact wrap_eq _ _ (lt_trans (hsub (j 0)) (by decide))

/-- The wrapped relation indices are the index words themselves when these are in range. -/
theorem wrapped_rel (hrel : ∀ b : Fin 32, (rel (ix2 b 0)).toNat < 500) (j : S32x1.Idx) :
    val_main_v14 (F := Ideal) rel j = rel (ix2 (j 0) 0) := by
  rw [val_main_v14_apply, val_main_v13_apply, val_main_v10_apply, val_main_v12_apply, val_main_v9_apply, val_main_c_1_apply,
    val_main_v8_apply]
  have hj : idx_main_v8 (idx_main_v14 j) = ix2 (j 0) 0 := by
    funext a; match a with | ⟨0, _⟩ => exact Fin.ext (Nat.div_one _) | ⟨1, _⟩ => rfl
  rw [hj]
  exact wrap_eq _ _ (lt_trans (hrel (j 0)) (by decide))

/-- The sum of the two gathered rows is the query row. -/
theorem query_eq (hsub : ∀ b : Fin 32, (sub (ix2 b 0)).toNat < 100000) (hrel : ∀ b : Fin 32, (rel (ix2 b 0)).toNat < 500)
    (y : S32x64.Idx) : val_main_v16 (F := Ideal) sub rel e r y = queryRows sub rel e r y := by
  rw [val_main_v16_apply]
  unfold val_main_v7 val_main_v15
  have h7 : Host.gather gather_S100000x64_S32x1_S32x64_1_0_n_n_0_1_164 e (val_main_v6 (F := Ideal) sub) y
      = e (ix2 (rowOf 100000 (by decide) (sub (ix2 (y 0) 0))) (y 1)) := by
    refine (gather_rows_apply (N := 100000) (R := 32) (D := 64) (by decide) gather_S100000x64_S32x1_S32x64_1_0_n_n_0_1_164_wf e
      (val_main_v6 (F := Ideal) sub) y).trans ?_
    refine congrArg (fun t => e (ix2 t (y 1))) (Fin.ext ?_)
    show min (val_main_v6 (F := Ideal) sub (ix2 (y 0) 0)).toInt.toNat (100000 - 1)
      = min (sub (ix2 (y 0) 0)).toInt.toNat (100000 - 1)
    rw [wrapped_sub sub hsub]
  have h15 : Host.gather gather_S500x64_S32x1_S32x64_1_0_n_n_0_1_164 r (val_main_v14 (F := Ideal) rel) y
      = r (ix2 (rowOf 500 (by decide) (rel (ix2 (y 0) 0))) (y 1)) := by
    refine (gather_rows_apply (N := 500) (R := 32) (D := 64) (by decide) gather_S500x64_S32x1_S32x64_1_0_n_n_0_1_164_wf r
      (val_main_v14 (F := Ideal) rel) y).trans ?_
    refine congrArg (fun t => r (ix2 t (y 1))) (Fin.ext ?_)
    show min (val_main_v14 (F := Ideal) rel (ix2 (y 0) 0)).toInt.toNat (500 - 1)
      = min (rel (ix2 (y 0) 0)).toInt.toNat (500 - 1)
    rw [wrapped_rel rel hrel]
  rw [h7, h15]
  rfl

/-- The reference's result, entry by entry, is the score of the query rows against the entity table, when every index
    word is in range. -/
theorem val_eq_score (hsub : ∀ b : Fin 32, (sub (ix2 b 0)).toNat < 100000) (hrel : ∀ b : Fin 32, (rel (ix2 b 0)).toNat < 500) :
    val_main_v26 (F := Ideal) sub rel e r = score (queryRows sub rel e r) e := by
  funext i
  rw [val_main_v26_apply, val_main_v25_apply, val_main_cst_3_apply, val_main_v24_apply, val_main_v23_apply,
    val_main_cst_apply]
  show Ideal.ofBits .f32 0x41100000#32 - Ideal.sqrt (Ideal.ofBits .f32 0x00000000#32 + ∑ k, _)
    = Ideal.ofBits .f32 0x41100000#32 - Ideal.sqrt (sqDist _ _ (i 0) (i 1))
  rw [Ideal.ofBits_zero_f32, zero_add]
  unfold sqDist
  refine congrArg (fun t => Ideal.ofBits .f32 0x41100000#32 - Ideal.sqrt t) (Finset.sum_congr rfl fun k _ => ?_)
  rw [val_main_v22_apply, val_main_v21_apply, val_main_v19_apply, val_main_v17_apply, val_main_v20_apply, val_main_v18_apply,
    query_eq sub rel e r hsub hrel]
  have hq : idx_main_v17 (idx_main_v19 (idx_main_v23 i k)) = ix2 (i 0) k := by
    funext a; match a with | ⟨0, _⟩ => rfl | ⟨1, _⟩ => rfl
  have he : idx_main_v18 (idx_main_v20 (idx_main_v23 i k)) = ix2 (i 1) k := by
    funext a; match a with | ⟨0, _⟩ => rfl | ⟨1, _⟩ => rfl
  rw [hq, he]
  rfl

end Value

section Run

open Idealize.ShloMosaic.TcCoe Idealize.SL.Sem Idealize.ShloMosaic.StableHlo

open Cert.ReferenceIdeal in
/-- The reference's run: from any memory whose index words are in range, every weakly fair execution of the reference ends
    with its result at the score of the query rows against the entity table, and its four arguments unchanged. -/
theorem ref_run (m : (ℓ : Loc nD τ sig) → Buf (Elt Ideal) ℓ) (ρ : Dev nD → PrngReg)
    (hsub : ∀ (c : Dev nD) (b : Fin 32), ((m ((c.tc : Thread nD τ).loc main_arg0) : IVec S32x1 32) (ix2 b 0)).toNat < 100000)
    (hrel : ∀ (c : Dev nD) (b : Fin 32), ((m ((c.tc : Thread nD τ).loc main_arg1) : IVec S32x1 32) (ix2 b 0)).toNat < 500) :
    θ_run (defs (F := Ideal)) (onTc (τ := τ) (main (F := Ideal))) ⟨m, fun _ => 0, ρ⟩ fun r => ∀ c : Dev nD,
      r.2.mem ((c.tc : Thread nD τ).loc main_v26) = Cert.Dist.score (Cert.Dist.queryRows (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run (defs (F := Ideal)) _ _).mono (fun _ h c => ⟨(h c).1.trans ?_, (h c).2⟩)
    (Cert.ReferenceIdeal.Value.run (F := Ideal) m ρ)
  exact (Cert.ReferenceIdeal.Read.val_main_v26_eq _ _ _ _).trans (val_eq_score _ _ _ _ (hsub c) (hrel c))

end Run

end Cert.Dist.Ref

end
-- ==== Proof.KernelQuery.lean ====
import proofs.«419847_j90314572300924_3_alg».proof.Proof.Gen.KernelIdeal.Frame
import proofs.«419847_j90314572300924_3_alg».proof.Proof.Spec
import proofs.«419847_j90314572300924_3_alg».proof.Proof.RefValue
import Idealize.ShloMosaic.Lib.StableHlo.Run
import Idealize.ShloMosaic.Lib.StableHlo.Predicate
import Idealize.ShloMosaic.Lib.Affine
import Idealize.ShloMosaic.Lib.ValueIdx
import Idealize.ShloMosaic.Lib.Pipeline.Value
import Idealize.ShloMosaic.PureOps.Reduce

/-! The query rows the kernel's program computes before its one region. Per table it wraps each index word ("if negative,
    add the row count"), tests the wrapped word against `[0, n - 1]`, gathers the row the wrapped word names (read signed
    and brought into the table) and keeps the gathered row where the test holds, a fixed word elsewhere; the query rows are
    the sum of the two tables' rows. For index words in range the wrap is the identity, the test holds everywhere, and the
    row gathered is the row the specification's `rowOf` selects: the sum is `Cert.Dist.queryRows`. -/

noncomputable section

namespace Cert.KernelIdeal.Query

open Idealize.ShloMosaic Idealize.ShloMosaic.TcCoe Idealize.ShloMosaic.ValueIdx
open Idealize.SL.Sem
open Cert.KernelIdeal Cert.KernelIdeal.Gen
open Cert.Dist Cert.Dist.Ref

/-! ## One table's rows, as a function of the table and the index column -/

section Take

/-- The index column as a vector. -/
def flat (s : IVec S32x1 32) : IVec S32 32 := shapeCast S32 s shapeCasts_S32x1_S32

/-- The wrapped index column: a negative word has the row count `n` added. -/
def wrapped (n : BitVec 32) (s : IVec S32x1 32) : IVec S32x1 32 :=
  broadcastInDim S32x1 ![0] bcast_S32_S32x1_0
    (select (cmpi .slt (flat s) (broadcastInDim S32 ![] bcast_S_S32 (constantI S_ 32 0#32)))
      (addi (flat s) (broadcastInDim S32 ![] bcast_S_S32 (constantI S_ 32 n))) (flat s))

/-- The range test, per row: the wrapped word is at least zero and at most `last`. -/
def inRange (n last : BitVec 32) (s : IVec S32x1 32) : IVec S32 1 :=
  Host.reduce IntOp.andi
    (andi (cmpi .sge (wrapped n s) (broadcastInDim S32x1 ![] bcast_S_S32x1 (constantI S_ 32 0#32)))
      (cmpi .sle (wrapped n s)
        (broadcastInDim S32x1 ![0, 1] bcast_S1x1_S32x1_0_1 (broadcastInDim S1x1 ![1] bcast_S1_S1x1_1 (constantI S1 32 last)))))
    (constantI S_ 1 1#1) reducesTo_S32x1_S32_d1 h_S_

/-- The rows taken from an `N`-row table: the gathered row where the range test holds, a fixed word elsewhere. -/
def taken {N : Nat} (n last : BitVec 32)
    (wf : GatherDims.WF ⟨2, ![N, 64]⟩ ⟨2, ![32, 1]⟩ ⟨2, ![32, 64]⟩ [1] [0] [] [0] [] 1 ![1, 64])
    (tbl : FVec Ideal ⟨2, ![N, 64]⟩ .f32) (s : IVec S32x1 32) : FVec Ideal S32x64 .f32 :=
  select (broadcastInDim S32x64 ![0] bcast_S32_S32x64_0 (inRange n last s))
    (Host.gather (rowDims N 32 64 wf) tbl (wrapped n s))
    (broadcastInDim S32x64 ![] bcast_S_S32x64 (constant S_ .f32 0x7FC00000#32))

variable {N : Nat} (n last : BitVec 32) (s : IVec S32x1 32)

/-- The index column read as a vector at `b` is the column at `(b, 0)`. -/
theorem flat_apply (b : Fin 32) : flat s (ix1 b) = s (ix2 b 0) := by
  unfold flat
  refine shapeCast_apply s shapeCasts_S32x1_S32 (ix1 b) (ix2 b 0) ?_
  rw [Shape.rowMajor_val_one, Shape.rowMajor_val_two]
  show b.val * 1 + 0 = b.val
  omega

/-- A word in range is its own wrap. -/
theorem wrapped_apply (hs : ∀ b : Fin 32, (s (ix2 b 0)).toNat < 2 ^ 31) (j : S32x1.Idx) :
    wrapped n s j = s (ix2 (j 0) 0) := by
  unfold wrapped
  refine (broadcastInDim_apply ![0] bcast_S32_S32x1_0 _ j (ix1 (j 0)) (fun a => by
    obtain rfl : a = 0 := Subsingleton.elim _ _
    rfl)).trans ?_
  show Scalar.select (IntOp.cmpi .slt (flat s (ix1 (j 0))) 0#32) (IntOp.addi (flat s (ix1 (j 0))) n) (flat s (ix1 (j 0))) = _
  rw [flat_apply s (j 0)]
  exact wrap_eq n _ (hs (j 0))

/-- With every word in range the range test holds on every row. -/
theorem inRange_apply (hlast : last.toNat < 2 ^ 31) (hs : ∀ b : Fin 32, (s (ix2 b 0)).toNat ≤ last.toNat) (j : S32.Idx) :
    inRange n last s j = 1#1 := by
  have hs' : ∀ b : Fin 32, (s (ix2 b 0)).toNat < 2 ^ 31 := fun b => lt_of_le_of_lt (hs b) hlast
  have hx : ∀ i : S32x1.Idx,
      (andi (cmpi .sge (wrapped n s) (broadcastInDim S32x1 ![] bcast_S_S32x1 (constantI S_ 32 0#32)))
        (cmpi .sle (wrapped n s)
          (broadcastInDim S32x1 ![0, 1] bcast_S1x1_S32x1_0_1 (broadcastInDim S1x1 ![1] bcast_S1_S1x1_1 (constantI S1 32 last))))) i
        = 1#1 := by
    intro i
    show IntOp.andi (IntOp.cmpi .sge (wrapped n s i) 0#32) (IntOp.cmpi .sle (wrapped n s i) last) = 1#1
    rw [wrapped_apply n s hs' i]
    refine IntOp.andi_eq_one.mpr ⟨?_, ?_⟩
    · exact (StableHlo.Predicate.sge_iff_toNat (hs' (i 0)) (by decide)).mpr (Nat.zero_le _)
    · exact (StableHlo.Predicate.sle_iff_toNat (hs' (i 0)) hlast).mpr (hs (i 0))
  unfold inRange
  rw [Host.reduce_eq_foldl]
  show List.foldl _ 1#1 _ = 1#1
  generalize (List.filter _ _) = l
  induction l with
  | nil => rfl
  | cons a l ih => rw [List.foldl_cons, hx a]; exact ih

/-- THE ROWS TAKEN, entry by entry: with every index word below the row count, entry `(b, j)` is the table's at the row the
    specification's `rowOf` selects, column `j`. -/
theorem taken_apply (hN : 0 < N) (hN' : N ≤ 2 ^ 31) (hlast : last.toNat = N - 1)
    (wf : GatherDims.WF ⟨2, ![N, 64]⟩ ⟨2, ![32, 1]⟩ ⟨2, ![32, 64]⟩ [1] [0] [] [0] [] 1 ![1, 64])
    (tbl : FVec Ideal ⟨2, ![N, 64]⟩ .f32) (hs : ∀ b : Fin 32, (s (ix2 b 0)).toNat < N) (i : S32x64.Idx) :
    taken n last wf tbl s i = tbl (ix2 (rowOf N hN (s (ix2 (i 0) 0))) (i 1)) := by
  have hs' : ∀ b : Fin 32, (s (ix2 b 0)).toNat < 2 ^ 31 := fun b => lt_of_lt_of_le (hs b) hN'
  have hmask : broadcastInDim S32x64 ![0] bcast_S32_S32x64_0 (inRange n last s) i = 1#1 :=
    (broadcastInDim_apply ![0] bcast_S32_S32x64_0 _ i (ix1 (i 0)) (fun a => by
      obtain rfl : a = 0 := Subsingleton.elim _ _
      rfl)).trans (inRange_apply n last s (by omega) (fun b => by have := hs b; omega) _)
  unfold taken
  rw [select_apply, hmask, select_one, gather_rows_apply hN wf]
  refine congrArg (fun t => tbl (ix2 t (i 1))) (Fin.ext ?_)
  exact congrArg (fun w : BitVec 32 => min w.toInt.toNat (N - 1)) (wrapped_apply n s hs' _)

end Take

/-! ## The program's query rows -/

/-- The query rows when the region is entered, as the operations' composed term over the four argument arrays. -/
theorem V_query_term (m : (ℓ : Loc nD τ sig) → Buf (Elt Ideal) ℓ) (c : Dev nD) :
    (V m c main_call0_v4 : S32x64.Idx → EReal)
      = addf (taken 100000#32 99999#32 gather_S100000x64_S32x1_S32x64_1_0_n_n_0_1_164_wf
            (m ((c.tc : Thread nD τ).loc main_arg2)) (m ((c.tc : Thread nD τ).loc main_arg0)))
          (taken 500#32 499#32 gather_S500x64_S32x1_S32x64_1_0_n_n_0_1_164_wf
            (m ((c.tc : Thread nD τ).loc main_arg3)) (m ((c.tc : Thread nD τ).loc main_arg1))) := by
  delta Gen.V Gen.hostOps0
  after_results_simp <;> rfl

/-- With every index word in range, the query rows the region finds are the specification's. -/
theorem V_query (m : (ℓ : Loc nD τ sig) → Buf (Elt Ideal) ℓ) (c : Dev nD)
    (hsub : ∀ b : Fin 32, ((m ((c.tc : Thread nD τ).loc main_arg0) : IVec S32x1 32) (ix2 b 0)).toNat < 100000)
    (hrel : ∀ b : Fin 32, ((m ((c.tc : Thread nD τ).loc main_arg1) : IVec S32x1 32) (ix2 b 0)).toNat < 500) :
    (V m c main_call0_v4 : S32x64.Idx → EReal) = Cert.Dist.queryRows (m ((c.tc : Thread nD τ).loc main_arg0)) (m ((c.tc : Thread nD τ).loc main_arg1)) (m ((c.tc : Thread nD τ).loc main_arg2)) (m ((c.tc : Thread nD τ).loc main_arg3)) := by
  rw [V_query_term]
  funext i
  rw [addf_apply, taken_apply (N := 100000) _ _ _ (by decide) (by decide) (by decide) _ _ hsub,
    taken_apply (N := 500) _ _ _ (by decide) (by decide) (by decide) _ _ hrel]
  rfl

/-- No operation before the region writes the entity table: the region finds it as launched. -/
theorem V_table (m : (ℓ : Loc nD τ sig) → Buf (Elt Ideal) ℓ) (c : Dev nD) :
    V m c main_arg2 = m ((c.tc : Thread nD τ).loc main_arg2) := Gen.V_main_arg2 m c

end Cert.KernelIdeal.Query

end
-- ==== Proof.KernelRun.lean ====
import proofs.«419847_j90314572300924_3_alg».proof.Proof.Blocks
import proofs.«419847_j90314572300924_3_alg».proof.Proof.KernelQuery

set_option maxRecDepth 16384

/-! The idealized kernel's run, with the result named: for finite tables and index words in range, every weakly fair
    execution ends with the result array at the score of the query rows (entity row `sub b` plus relation row
    `rel b`) against the entity table, and the four arguments as launched. -/

noncomputable section

namespace Cert.KernelIdeal.Run

open Cert.KernelIdeal Cert.KernelIdeal.Gen Cert.KernelIdeal.Body
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

theorem kernel_run
    (hE : ∀ (c : Dev nD) i, ∃ x : ℝ, (m ((c.tc : Thread nD τ).loc main_arg2) : S100000x64.Idx → EReal) i = (x : EReal))
    (hR : ∀ (c : Dev nD) i, ∃ x : ℝ, (m ((c.tc : Thread nD τ).loc main_arg3) : S500x64.Idx → EReal) i = (x : EReal))
    (hsub : ∀ (c : Dev nD) (b : Fin 32), ((m ((c.tc : Thread nD τ).loc main_arg0) : IVec S32x1 32) (ix2 b 0)).toNat < 100000)
    (hrel : ∀ (c : Dev nD) (b : Fin 32), ((m ((c.tc : Thread nD τ).loc main_arg1) : IVec S32x1 32) (ix2 b 0)).toNat < 500) :
    θ_run defs (onTc (τ := τ) (main (F := Ideal))) ⟨m, fun _ => 0, ρ⟩ (fun r => ∀ c : Dev nD,
      r.2.mem ((c.tc : Thread nD τ).loc main_v0)
        = Cert.Dist.score (Cert.Dist.queryRows (m ((c.tc : Thread nD τ).loc main_arg0)) (m ((c.tc : Thread nD τ).loc main_arg1))
            (m ((c.tc : Thread nD τ).loc main_arg2)) (m ((c.tc : Thread nD τ).loc main_arg3))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ⟨?_,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c)⟩)
    (Cert.KernelIdeal.Exact.run_main m ρ)
  have hq := Cert.KernelIdeal.Query.V_query m c (hsub c) (hrel c)
  have ht : (V m c main_arg2 : S100000x64.Idx → EReal) = m ((c.tc : Thread nD τ).loc main_arg2) := V_main_arg2 m c
  have hQ : ∀ i, ∃ x : ℝ, Cert.KernelIdeal.Blocks.Q m c i = (x : EReal) := fun i => by
    show ∃ x : ℝ, (V m c main_call0_v4 : S32x64.Idx → EReal) i = (x : EReal)
    rw [hq]; exact Cert.Dist.queryRows_real _ _ _ _ (hE c) (hR c) i
  have hT : ∀ i, ∃ x : ℝ, Cert.KernelIdeal.Blocks.T m c i = (x : EReal) := fun i => by
    show ∃ x : ℝ, (V m c main_arg2 : S100000x64.Idx → EReal) i = (x : EReal)
    rw [ht]; exact hE c i
  refine ((h c).1 2).trans ((Cert.KernelIdeal.Blocks.final m c hQ hT).trans ?_)
  show Cert.Dist.score (V m c main_call0_v4 : S32x64.Idx → EReal) (V m c main_arg2 : S100000x64.Idx → EReal) = _
  rw [hq, ht]

end Cert.KernelIdeal.Run

end
-- ==== Proof.PreDecode.lean ====
import proofs.«419847_j90314572300924_3_alg».proof.Pre_finite_inputs
import proofs.«419847_j90314572300924_3_alg».proof.Proof.Gen.Pre_finite_inputs
import proofs.«419847_j90314572300924_3_alg».proof.Proof.Spec
import Idealize.ShloMosaic.Lib.ReduceAll
import Idealize.ShloMosaic.Lib.StableHlo.Predicate
import Idealize.ShloMosaic.Lib.ValueIdx

/-! What the precondition says, read back: the four conjuncts of the printed predicate are, in order, that every entry of
    the entity table and every entry of the relation table has absolute value below plus infinity, and that every entity
    index lies in [0, 100000) and every relation index in [0, 500). An extended real whose absolute value is below plus
    infinity is a real, and a word that is signed-non-negative and signed-below a small bound has its value below the
    bound. -/

namespace Cert.Dist.Pre

open Idealize.ShloMosaic Idealize.ShloMosaic.ValueIdx

/-- The result shape of a reduction over all axes has one index. -/
instance scalarIdxSubsingleton : Subsingleton Cert.Pre_finite_inputs.S_.Idx := ⟨fun a b => funext fun d => d.elim0⟩

/-- An extended real whose absolute value max x (-x) is strictly below the value of the word 0x7F800000 (plus infinity)
    is a real: plus infinity fails the comparison itself, and minus infinity fails it through its negation. -/
private theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ y : ℝ, x = (y : EReal) := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  unfold Ideal.cmp at h'
  induction x using EReal.rec with
  | bot => simp at h'
  | coe y => exact ⟨y, rfl⟩
  | top => simp at h'

/-- A 32-bit word that is signed-at-least zero and signed-below a bound n under 2³¹ has its unsigned value below n. -/
private theorem toNat_lt_of_range (x : BitVec 32) (n : Nat) (hn : n < 2 ^ 31)
    (h0 : IntOp.cmpi .sge x 0#32 = 1#1) (h1 : IntOp.cmpi .slt x (BitVec.ofNat 32 n) = 1#1) : x.toNat < n := by
  unfold IntOp.cmpi at h0 h1
  rw [StableHlo.Predicate.ofBool_eq_one_iff] at h0 h1
  simp only [BitVec.sle, BitVec.slt, decide_eq_true_eq] at h0 h1
  rw [StableHlo.Predicate.toInt_ofNat_small n hn] at h1
  have hz : (0#32 : BitVec 32).toInt = 0 := by decide
  rw [hz] at h0
  rw [BitVec.toInt_eq_toNat_cond] at h0 h1
  split at h0 <;> omega

open Cert.Pre_finite_inputs in
theorem pre_decode [Cert.Pre_finite_inputs.Facts] (sub rel : IVec S32x1 32) (e : FVec Ideal S100000x64 .f32) (r : FVec Ideal S500x64 .f32)
    (h : Cert.Pre_finite_inputs.fn (F := Ideal) sub rel e r = fun _ => 1#1) :
    (∀ i, ∃ x : ℝ, e i = (x : EReal)) ∧ (∀ i, ∃ x : ℝ, r i = (x : EReal))
      ∧ (∀ b : Fin 32, (sub (ix2 b 0)).toNat < 100000) ∧ (∀ b : Fin 32, (rel (ix2 b 0)).toNat < 500) := by
  have h0 := congrFun h ValueIdx.ix0
  dsimp only [Cert.Pre_finite_inputs.fn, Cert.Pre_finite_inputs.fn_part1] at h0
  -- the four conjuncts, split off from the right
  obtain ⟨h012, h3⟩ := IntOp.andi_eq_one.1 h0
  obtain ⟨h01, h2⟩ := IntOp.andi_eq_one.1 h012
  obtain ⟨hA, hB⟩ := IntOp.andi_eq_one.1 h01
  refine ⟨fun i => ?_, fun i => ?_, fun b => ?_, fun b => ?_⟩
  · exact real_of_abs_lt_inf (e i) (Host.reduce_andi_all _ _ _ _ _ hA i)
  · exact real_of_abs_lt_inf (r i) (Host.reduce_andi_all _ _ _ _ _ hB i)
  · obtain ⟨hge, hlt⟩ := IntOp.andi_eq_one.1 (Host.reduce_andi_all _ _ _ _ _ h2 (ix2 b 0))
    exact toNat_lt_of_range (sub (ix2 b 0)) 100000 (by norm_num) hge hlt
  · obtain ⟨hge, hlt⟩ := IntOp.andi_eq_one.1 (Host.reduce_andi_all _ _ _ _ _ h3 (ix2 b 0))
    exact toNat_lt_of_range (rel (ix2 b 0)) 500 (by norm_num) hge hlt

end Cert.Dist.Pre
-- ==== Proof.lean ====
/- The certificate: the kernel scores 32 query rows — entity row `sub b` plus relation row `rel b` — against all
   100000 entity rows, nine minus the Euclidean distance, by ‖q‖² + ‖e‖² − 2 q·e on blocks of 12544 entity rows;
   the reference subtracts, squares and sums. Over the extended reals, for finite tables and index words inside their
   tables, both end with the same array: the expansion of the square is an identity of real numbers, and the sum of
   squares is not negative, so the kernel's maximum with zero changes nothing. The last block of the table overhangs
   its end by 352 rows; what the staging buffer holds there reaches only columns of the result's block that are not
   written back. The three frames need no precondition. -/
import proofs.«419847_j90314572300924_3_alg».proof.Defs
import proofs.«419847_j90314572300924_3_alg».proof.Proof.Gen.Kernel
import proofs.«419847_j90314572300924_3_alg».proof.Proof.Gen.KernelIdeal
import proofs.«419847_j90314572300924_3_alg».proof.Proof.Gen.ReferenceIdeal
import proofs.«419847_j90314572300924_3_alg».proof.Proof.Gen.Pre_finite_inputs
import proofs.«419847_j90314572300924_3_alg».proof.Proof.Gen.ReferenceIdeal.Run
import proofs.«419847_j90314572300924_3_alg».proof.Proof.FrameRunK
import proofs.«419847_j90314572300924_3_alg».proof.Proof.FrameRun
import proofs.«419847_j90314572300924_3_alg».proof.Proof.KernelRun
import proofs.«419847_j90314572300924_3_alg».proof.Proof.RefValue
import proofs.«419847_j90314572300924_3_alg».proof.Proof.PreDecode
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Body.frame (F := Bits) m ρ

/-- So does the idealized kernel. -/
theorem frame_ki : Cert.frame_KernelIdeal := fun m ρ _ => Cert.KernelIdeal.Body.frame (F := Ideal) m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments, both programs end with the score of the query rows against the table. -/
theorem algebraic : Cert.algebraic_KernelIdeal_ReferenceIdeal := by
  intro m ρ m' ρ' hpre hagree
  have hd := fun c : Dev Cert.KernelIdeal.nD => Cert.Dist.Pre.pre_decode _ _ _ _ (hpre c)
  refine ⟨fun c => Cert.Dist.score (Cert.Dist.queryRows (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)))
      (m ((c.tc : Thread Cert.KernelIdeal.nD Cert.KernelIdeal.τ).loc Cert.KernelIdeal.main_arg2)),
    Cert.KernelIdeal.Run.kernel_run m ρ (fun c => (hd c).1) (fun c => (hd c).2.1) (fun c => (hd c).2.2.1) (fun c => (hd c).2.2.2), ?_⟩
  refine (θ_run Cert.ReferenceIdeal.defs _ _).mono (fun r h c => ⟨?_, (h c).2⟩)
    (Cert.Dist.Ref.ref_run m' ρ'
      (fun c b => by rw [(hagree c).1]; exact (hd c).2.2.1 b)
      (fun c b => by rw [(hagree c).2.1]; exact (hd c).2.2.2 b))
  rw [(h c).1, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
